-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1000 : Shape := ⟨2, ![8192, 1000]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1000 : S_.BroadcastsInDim S8192x1000 (![] : Fin 0 → Fin S8192x1000.rank)
  reducesTo_S8192x1000_S_d0_1 : S8192x1000.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : IVec S8192 32) (main_v13 : IVec S_ 1) (main_v16 : IVec S8192x1000 1) : IVec S_ 1 :=
  let main_c_5 : IVec S_ 1 := constantI S_ 1 1#1
  let main_v17 : IVec S_ 1 := (fun x v => Host.reduce IntOp.andi x v reducesTo_S8192x1000_S_d0_1 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg4 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  let main_c_8 : IVec S_ 32 := constantI S_ 32 1000#32
  let main_v23 : IVec S8192 32 := broadcastInDim S8192 ![] bcast_S_S8192 main_c_8
  let main_v24 : IVec S8192 1 := cmpi .slt main_arg4 main_v23
  let main_c_9 : IVec S_ 1 := constantI S_ 1 1#1
  let main_v25 : IVec S_ 1 := (fun x v => Host.reduce IntOp.andi x v reducesTo_S8192_S_d0 h_S_) main_v24 main_c_9
  let main_v26 : IVec S_ 1 := andi main_v22 main_v25
  main_v26

def fn {F : FTy → Type} [FloatOps F] (main_arg0 : FVec F S8192x512 .f32) (main_arg1 : FVec F S8192x512 .f32) (main_arg2 : FVec F S8192x512 .f32) (main_arg3 : FVec F S8192x1000 .f32) (main_arg4 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x1000 .f32 := Host.absf main_arg3
  let main_cst_4 : FVec F S_ .f32 := constant S_ .f32 0x7F800000#32
  let main_v15 : FVec F S8192x1000 .f32 := broadcastInDim S8192x1000 ![] bcast_S_S8192x1000 main_cst_4
  let main_v16 : IVec S8192x1000 1 := cmpf .olt main_v14 main_v15
  fn_part1 (F := F) main_arg4 main_v13 main_v16
-- ==== Kernel.lean ====
abbrev S8192x512 : Shape := ⟨2, ![8192, 512]⟩
abbrev S8192x1000 : Shape := ⟨2, ![8192, 1000]⟩
abbrev S8192 : Shape := ⟨1, ![8192]⟩
abbrev S8192x1 : Shape := ⟨2, ![8192, 1]⟩
abbrev S16x128 : Shape := ⟨2, ![16, 128]⟩
abbrev S512x512 : Shape := ⟨2, ![512, 512]⟩
abbrev S512x1000 : Shape := ⟨2, ![512, 1000]⟩
abbrev S512x1 : Shape := ⟨2, ![512, 1]⟩
abbrev S8x128 : Shape := ⟨2, ![8, 128]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 18
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1000, .f32⟩
  | .hbm, ⟨4, _⟩ => ⟨S8192, .i32⟩
  | .hbm, ⟨5, _⟩ => ⟨S8192x1, .i32⟩
  | .hbm, ⟨6, _⟩ => ⟨S16x128, .f32⟩
  | .hbm, ⟨7, _⟩ => ⟨S16x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1000, .f32⟩
  | .local _ .vmem, ⟨7, _⟩ => ⟨S512x1000, .f32⟩
  | .local _ .vmem, ⟨8, _⟩ => ⟨S512x1, .i32⟩
  | .local _ .vmem, ⟨9, _⟩ => ⟨S512x1, .i32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8192_S8192x1 : S8192.ShapeCasts S8192x1
  inb_S8x128_S8x128_0_0 : ∀ a, (![0, 0] : Fin 2 → Nat) a + S8x128.size a ≤ S8x128.size a
  h_S8x128 : 0 < S8x128.numel
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  broadcasts_S512x1_S512x1000 : S512x1.Broadcasts S512x1000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S8192x1000.size a
  hwx0_3 : ∀ i : grid0.Coords, EltTy.bits .f32 = 32 ∨ (Rect.block (s := S8192x1000) S512x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S16x128.size a
  hwx0_6 : ∀ i : grid0.Coords, EltTy.bits .f32 = 32 ∨ (Rect.block (s := S16x128) S8x128.size (cc0_transform_6 i) (hinb0_6 i)).WholeWords (EltTy.packing .f32)

variable [Facts₀]

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1000 : Shape := ⟨2, ![8192, 1000]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1000, .f32⟩
  | .hbm, ⟨4, _⟩ => ⟨S8192, .i32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x1000, .f32⟩
  | .hbm, ⟨12, _⟩ => ⟨S8192x1000, .f32⟩
  | .hbm, ⟨13, _⟩ => ⟨S8192x1000, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S8192x1000, .f32⟩
  | .hbm, ⟨19, _⟩ => ⟨S8192x1000, .f32⟩
  | .hbm, ⟨20, _⟩ => ⟨S8192x1, .i32⟩
  | .hbm, ⟨21, _⟩ => ⟨S_, .i32⟩
  | .hbm, ⟨22, _⟩ => ⟨S8192x1, .i32⟩
  | .hbm, ⟨23, _⟩ => ⟨S8192x1, .i1⟩
  | .hbm, ⟨24, _⟩ => ⟨S_, .i32⟩
  | .hbm, ⟨25, _⟩ => ⟨S8192x1, .i32⟩
  | .hbm, ⟨26, _⟩ => ⟨S8192x1, .i32⟩
  | .hbm, ⟨27, _⟩ => ⟨S8192x1, .i32⟩
  | .hbm, ⟨28, _⟩ => ⟨S8192x1x1, .i32⟩
  | .hbm, ⟨29, _⟩ => ⟨S1, .i32⟩
  | .hbm, ⟨30, _⟩ => ⟨S_, .i32⟩
  | .hbm, ⟨31, _⟩ => ⟨S8192x1x1, .i32⟩
  | .hbm, ⟨32, _⟩ => ⟨S8192x1x1, .i1⟩
  | .hbm, ⟨33, _⟩ => ⟨S1x1x1, .i32⟩
  | .hbm, ⟨34, _⟩ => ⟨S8192x1x1, .i32⟩
  | .hbm, ⟨35, _⟩ => ⟨S8192x1x1, .i1⟩
  | .hbm, ⟨36, _⟩ => ⟨S8192x1x1, .i1⟩
  | .hbm, ⟨37, _⟩ => ⟨S_, .i1⟩
  | .hbm, ⟨38, _⟩ => ⟨S8192x1, .i1⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_cst : Ref sig .tc := ⟨.hbm, 43, rfl⟩
abbrev main_v3 : Ref sig .tc := ⟨.hbm, 44, rfl⟩
abbrev main_cst_0 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst_1 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_cst_2 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_cst_3 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_cst_4 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_call2_cst : Ref sig .tc := ⟨.hbm, 65, rfl⟩
abbrev main_call2_v0 : Ref sig .tc := ⟨.hbm, 66, rfl⟩
abbrev main_v19 : Ref sig .tc := ⟨.hbm, 67, rfl⟩
abbrev main_cst_5 : Ref sig .tc := ⟨.hbm, 68, rfl⟩
abbrev main_v20 : Ref sig .tc := ⟨.hbm, 69, rfl⟩
abbrev main_cst_6 : Ref sig .tc := ⟨.hbm, 70, rfl⟩
abbrev main_v21 : Ref sig .tc := ⟨.hbm, 71, rfl⟩
abbrev main_v22 : Ref sig .tc := ⟨.hbm, 72, rfl⟩

abbrev nD : Nat := 1
abbrev τ : Topo := Topo.v7x

variable {F : FTy → Type} [FloatOps F]

class Facts₀ : Prop where
  reducesTo_S8192x1000_S8192_d1 : S8192x1000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1000_0_1 : S8192x1.BroadcastsInDim S8192x1000 (![0, 1] : Fin 2 → Fin S8192x1000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  bcast_S_S8192x512 : S_.BroadcastsInDim S8192x512 (![] : Fin 0 → Fin S8192x512.rank)
  reducesTo_S8192x512_S8192_d1 : S8192x512.ReducesTo [1] S8192
  reducesTo_S8192_S_d0 : S8192.ReducesTo [0] S_
  gather_S8192x1000_S8192x1x1_S8192x1_n_1_0_0_1_2_11_wf : GatherDims.WF S8192x1000 S8192x1x1 S8192x1 [] [1] [0] [1] [0] 2 ![1, 1]

variable [Facts₀]

def gather_S8192x1000_S8192x1x1_S8192x1_n_1_0_0_1_2_11 : GatherDims S8192x1000 S8192x1x1 S8192x1 where
  offsetDims := []
  collapsedSliceDims := [1]
  operandBatchingDims := [0]
  startIndicesBatchingDims := [0]
  startIndexMap := [1]
  indexVectorDim := 2
  sliceSizes := ![1, 1]
  wf := gather_S8192x1000_S8192x1x1_S8192x1_n_1_0_0_1_2_11_wf

class Facts : Prop extends Facts₀ where

variable [Facts]
-- ==== Proof.KernelPieces.lean ====
/-
  What one grid point leaves in the two accumulator blocks, as the body's arithmetic of what it loaded.

  At a core's first point the body stores a zero block to each accumulator, reads it back, and stores that block plus
  the point's contribution; at every later point it reads the block the point before left and stores it plus the
  point's contribution. Each block is written whole, so what it holds afterwards is the last store's value.
-/
import proofs.«409631_j17102559773290_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

/-- The zero offsets every whole-block load and store of the body uses. -/
theorem hz : (![0, 0] : Fin 2 → Nat) = fun _ => 0 := funext fun a => by fin_cases a <;> rfl

/-- The column numbers the label words are compared with. -/
abbrev cols : IVec S512x1000 32 := iota .tc S512x1000 32 [1] iota_S512x1000_d1_w32

/-- A later point, first accumulator: the carried block plus the hinge contribution. -/
theorem out_B_5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1000 .f32) (harg5 : arg5.IsWhole) (arg6 : Memref sig .tc .vmem S512x1 .i32) (harg6 : arg6.IsWhole) (arg7 : Memref sig .tc .vmem S8x128 .f32) (harg7 : arg7.IsWhole) (arg8 : Memref sig .tc .vmem S8x128 .f32) (harg8 : arg8.IsWhole) (hc0 : ¬cond0_0 i) (x0 : Vec F S512x512 .f32) (x1 : Vec F S512x512 .f32) (x2 : Vec F S512x512 .f32) (x3 : Vec F S512x1000 .f32) (x4 : Vec F S512x1 .i32) (xo5 : Vec F S8x128 .f32) (xo6 : Vec F S8x128 .f32) :
    out0_B_5 c i arg2 harg2 arg3 harg3 arg4 harg4 arg5 harg5 arg6 harg6 arg7 harg7 arg8 harg8 hc0 x0 x1 x2 x3 x4 xo5 xo6 = k0_pay2 (k0_pay6 x0 x1 x2) xo5 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x512) hz, View.ld_unit_zero (S := S512x1000) hz, View.ld_unit_zero (S := S512x1) hz, View.ld_unit_zero (S := S8x128) hz]

/-- A later point, second accumulator: the carried block plus the log-probability contribution. -/
theorem out_B_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1000 .f32) (harg5 : arg5.IsWhole) (arg6 : Memref sig .tc .vmem S512x1 .i32) (harg6 : arg6.IsWhole) (arg7 : Memref sig .tc .vmem S8x128 .f32) (harg7 : arg7.IsWhole) (arg8 : Memref sig .tc .vmem S8x128 .f32) (harg8 : arg8.IsWhole) (hc0 : ¬cond0_0 i) (x0 : Vec F S512x512 .f32) (x1 : Vec F S512x512 .f32) (x2 : Vec F S512x512 .f32) (x3 : Vec F S512x1000 .f32) (x4 : Vec F S512x1 .i32) (xo5 : Vec F S8x128 .f32) (xo6 : Vec F S8x128 .f32) :
    out0_B_6 c i arg2 harg2 arg3 harg3 arg4 harg4 arg5 harg5 arg6 harg6 arg7 harg7 arg8 harg8 hc0 x0 x1 x2 x3 x4 xo5 xo6 = k0_pay3 x3 (k0_pay7 x3) (k0_pay8 x3) (k0_pay9 x4) cols xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x512) hz, View.ld_unit_zero (S := S512x1000) hz, View.ld_unit_zero (S := S512x1) hz, View.ld_unit_zero (S := S8x128) hz]

/-- A core's first point, first accumulator: the zero block plus the hinge contribution. -/
theorem out_A_5 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1000 .f32) (harg5 : arg5.IsWhole) (arg6 : Memref sig .tc .vmem S512x1 .i32) (harg6 : arg6.IsWhole) (arg7 : Memref sig .tc .vmem S8x128 .f32) (harg7 : arg7.IsWhole) (arg8 : Memref sig .tc .vmem S8x128 .f32) (harg8 : arg8.IsWhole) (hc0 : cond0_0 i) (x0 : Vec F S512x512 .f32) (x1 : Vec F S512x512 .f32) (x2 : Vec F S512x512 .f32) (x3 : Vec F S512x1000 .f32) (x4 : Vec F S512x1 .i32) :
    out0_A_5 c i arg2 harg2 arg3 harg3 arg4 harg4 arg5 harg5 arg6 harg6 arg7 harg7 arg8 harg8 hc0 x0 x1 x2 x3 x4 = k0_pay2 (k0_pay6 x0 x1 x2) (k0_pay4 (F := F)) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg7.read_unread, harg8.read_unread, View.ld_unit_zero (S := S512x512) hz, View.ld_unit_zero (S := S512x1000) hz, View.ld_unit_zero (S := S512x1) hz, View.ld_unit_zero (S := S8x128) hz]

/-- A core's first point, second accumulator: the zero block plus the log-probability contribution. -/
theorem out_A_6 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1000 .f32) (harg5 : arg5.IsWhole) (arg6 : Memref sig .tc .vmem S512x1 .i32) (harg6 : arg6.IsWhole) (arg7 : Memref sig .tc .vmem S8x128 .f32) (harg7 : arg7.IsWhole) (arg8 : Memref sig .tc .vmem S8x128 .f32) (harg8 : arg8.IsWhole) (hc0 : cond0_0 i) (x0 : Vec F S512x512 .f32) (x1 : Vec F S512x512 .f32) (x2 : Vec F S512x512 .f32) (x3 : Vec F S512x1000 .f32) (x4 : Vec F S512x1 .i32) :
    out0_A_6 c i arg2 harg2 arg3 harg3 arg4 harg4 arg5 harg5 arg6 harg6 arg7 harg7 arg8 harg8 hc0 x0 x1 x2 x3 x4 = k0_pay3 x3 (k0_pay7 x3) (k0_pay8 x3) (k0_pay9 x4) cols (k0_pay5 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg7.read_unread, harg8.read_unread, View.ld_unit_zero (S := S512x512) hz, View.ld_unit_zero (S := S512x1000) hz, View.ld_unit_zero (S := S512x1) hz, View.ld_unit_zero (S := S8x128) hz]

end Cert.KernelIdeal.Pieces

end
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.Spec.lean ====
/-
  The three losses of a batch as sums over its rows, on the extended reals, and the arithmetic of the way the kernel
  gathers them.

  A row's hinge term is the positive part of the difference of two distances, each the square root of a sum of squares
  of differences shifted by one small constant; a row's log-probability is its selected logit less the row's maximum
  less the logarithm of the row's sum of exponentials of logits shifted by that maximum. The selected logit is written
  as the kernel takes it: the sum over the thousand columns of the logit where the column's number is the label word
  and of zero elsewhere; when the label word is a column's number this is that column's logit.

  The kernel sums rows 512 at a time. Each of two cores keeps an [8, 128] block that holds its running sum at entry
  (0, 0) and zero elsewhere: the block is reset at the first of the core's eight steps and gains one step's partial sum
  at each. Summing the two final blocks' every entry gives the sum of all sixteen partial sums, which is the sum over
  all 8192 rows.
-/
import Idealize.ShloMosaic.PureOps.Ideal.Laws
import Idealize.ShloMosaic.Lib.ValueIdx
import proofs.«409631_j17102559773290_2_alg».proof.Proof.LibTile

noncomputable section

namespace Cert.Hand.Spec

open Idealize.ShloMosaic Idealize.ShloMosaic.ValueIdx

/-- The shift added to every difference, the zero, and the value a row's maximum starts from, each as its word. -/
abbrev epsW : EReal := Ideal.ofBits .f32 0x358637BD#32
abbrev zeroW : EReal := Ideal.ofBits .f32 0x00000000#32
abbrev negInfW : EReal := Ideal.ofBits .f32 0xFF800000#32

theorem zeroW_eq : zeroW = 0 := Ideal.ofBits_zero_f32

variable {R : ℕ}

/-! ## A row's terms -/

/-- The sum over a row's 512 columns of the squares of the shifted differences of two arrays. -/
def sqDist (a b : (⟨2, ![R, 512]⟩ : Shape).Idx → EReal) (r : Fin R) : EReal :=
  ∑ k : Fin 512, (a (ix2 r k) - b (ix2 r k) + epsW) * (a (ix2 r k) - b (ix2 r k) + epsW)

/-- A row's hinge term: the positive part of the distance to the positive less the distance to the negative. -/
def hinge (a p n : (⟨2, ![R, 512]⟩ : Shape).Idx → EReal) (r : Fin R) : EReal :=
  max (Ideal.sqrt (sqDist a p r) - Ideal.sqrt (sqDist a n r)) zeroW

/-- A row's largest logit, as a fold of `max` over its thousand columns. -/
def rowMax (o : (⟨2, ![R, 1000]⟩ : Shape).Idx → EReal) (r : Fin R) : EReal :=
  (Finset.univ : Finset (Fin 1000)).fold max negInfW fun c => o (ix2 r c)

/-- The logarithm of a row's sum of exponentials of its logits less its largest. -/
def logSumExp (o : (⟨2, ![R, 1000]⟩ : Shape).Idx → EReal) (r : Fin R) : EReal :=
  Ideal.log (∑ c : Fin 1000, Ideal.exp (o (ix2 r c) - rowMax o r))

/-- A row's logit selected by a label word: the logit where the column's number is the word, zero elsewhere, summed. -/
def picked (o : (⟨2, ![R, 1000]⟩ : Shape).Idx → EReal) (w : BitVec 32) (r : Fin R) : EReal :=
  ∑ c : Fin 1000, Scalar.select (IntOp.cmpi .eq (BitVec.ofNat 32 c.val) w) (o (ix2 r c)) zeroW

/-- A row's log-probability of its label. -/
def logp (o : (⟨2, ![R, 1000]⟩ : Shape).Idx → EReal) (l : Fin R → BitVec 32) (r : Fin R) : EReal :=
  picked o (l r) r - rowMax o r - logSumExp o r

/-- When the label word is a column's number, the selection is that column's logit: every other column adds zero. -/
theorem picked_eq (o : (⟨2, ![R, 1000]⟩ : Shape).Idx → EReal) (w : BitVec 32) (r : Fin R) (c : Fin 1000)
    (hw : w = BitVec.ofNat 32 c.val) : picked o w r = o (ix2 r c) := by
  subst hw
  unfold picked
  rw [Finset.sum_eq_single c]
  · have : IntOp.cmpi .eq (BitVec.ofNat 32 c.val) (BitVec.ofNat 32 c.val) = 1#1 := by simp [IntOp.cmpi]
    rw [this, select_one]
  · intro d _ hd
    have hne : BitVec.ofNat 32 d.val ≠ BitVec.ofNat 32 c.val := by
      intro he
      apply hd
      have h1 := congrArg BitVec.toNat he
      simp only [BitVec.toNat_ofNat] at h1
      have hd' : d.val < 1000 := d.isLt
      have hc' : c.val < 1000 := c.isLt
      exact Fin.ext (by omega)
    have hb : (BitVec.ofNat 32 d.val == BitVec.ofNat 32 c.val) = false := beq_eq_false_iff_ne.mpr hne
    have : IntOp.cmpi .eq (BitVec.ofNat 32 d.val) (BitVec.ofNat 32 c.val) = 0#1 := by
      show BitVec.ofBool (BitVec.ofNat 32 d.val == BitVec.ofNat 32 c.val) = 0#1
      rw [hb]; rfl
    rw [this, select_zero, zeroW_eq]
  · intro h; exact absurd (Finset.mem_univ _) h

/-! ## A block of rows against the rows it holds -/

/-- Row `q` of block `t` is row `512 t + q` of the batch. -/
theorem row_lt {t q : ℕ} (ht : t < 16) (hq : q < 512) : 512 * t + q < 8192 := by omega

theorem hinge_block (a p n : (⟨2, ![8192, 512]⟩ : Shape).Idx → EReal) (xa xp xn : (⟨2, ![512, 512]⟩ : Shape).Idx → EReal)
    (t : ℕ) (ht : t < 16)
    (ha : ∀ (q : Fin 512) (k : Fin 512), xa (ix2 q k) = a (ix2 ⟨512 * t + q.val, row_lt ht q.isLt⟩ k))
    (hp : ∀ (q : Fin 512) (k : Fin 512), xp (ix2 q k) = p (ix2 ⟨512 * t + q.val, row_lt ht q.isLt⟩ k))
    (hn : ∀ (q : Fin 512) (k : Fin 512), xn (ix2 q k) = n (ix2 ⟨512 * t + q.val, row_lt ht q.isLt⟩ k)) (q : Fin 512) :
    hinge xa xp xn q = hinge a p n ⟨512 * t + q.val, row_lt ht q.isLt⟩ := by
  unfold hinge sqDist
  simp only [ha, hp, hn]

theorem logp_block (o : (⟨2, ![8192, 1000]⟩ : Shape).Idx → EReal) (l : Fin 8192 → BitVec 32)
    (xo : (⟨2, ![512, 1000]⟩ : Shape).Idx → EReal) (xl : Fin 512 → BitVec 32) (t : ℕ) (ht : t < 16)
    (ho : ∀ (q : Fin 512) (c : Fin 1000), xo (ix2 q c) = o (ix2 ⟨512 * t + q.val, row_lt ht q.isLt⟩ c))
    (hl : ∀ q : Fin 512, xl q = l ⟨512 * t + q.val, row_lt ht q.isLt⟩) (q : Fin 512) :
    logp xo xl q = logp o l ⟨512 * t + q.val, row_lt ht q.isLt⟩ := by
  unfold logp picked logSumExp rowMax
  simp only [ho, hl]

/-! ## The totals -/

/-- The hinge terms of all rows, summed; the log-probabilities of all rows, summed. -/
def hingeTotal (a p n : (⟨2, ![8192, 512]⟩ : Shape).Idx → EReal) : EReal := ∑ r : Fin 8192, hinge a p n r
def logpTotal (o : (⟨2, ![8192, 1000]⟩ : Shape).Idx → EReal) (l : Fin 8192 → BitVec 32) : EReal := ∑ r : Fin 8192, logp o l r

/-- Every label word is the number of one of the thousand columns. -/
def InRange (l : Fin 8192 → BitVec 32) : Prop := ∀ r : Fin 8192, ∃ c : Fin 1000, l r = BitVec.ofNat 32 c.val

/-- The three results. The triplet loss is zero plus the hinge total (a sum that starts from zero); the softmax loss is
    the negated quotient by 8192 of zero plus the log-probability total; the total loss adds a tenth (as its word) of
    the triplet loss to the softmax loss. -/
def lossTriplet (a p n : (⟨2, ![8192, 512]⟩ : Shape).Idx → EReal) : EReal := zeroW + hingeTotal a p n
def lossSoftmax (o : (⟨2, ![8192, 1000]⟩ : Shape).Idx → EReal) (l : Fin 8192 → BitVec 32) : EReal :=
  -(Ideal.div (zeroW + logpTotal o l) (Ideal.ofBits .f32 0x46000000#32))
def lossTotal (a p n : (⟨2, ![8192, 512]⟩ : Shape).Idx → EReal) (o : (⟨2, ![8192, 1000]⟩ : Shape).Idx → EReal)
    (l : Fin 8192 → BitVec 32) : EReal :=
  lossSoftmax o l + Ideal.ofBits .f32 0x3DCCCCCD#32 * lossTriplet a p n

/-- The sum over all rows is the sum over the sixteen blocks of the sums over each block's 512 rows. -/
theorem sum_blocks (f : Fin 8192 → EReal) :
    ∑ t : Fin 16, ∑ q : Fin 512, f ⟨512 * t.val + q.val, row_lt t.isLt q.isLt⟩ = ∑ r : Fin 8192, f r :=
  Cert.Hand.LibTile.sum_tiles (m := 16) (n := 512) rfl f

/-! ## The accumulator block -/

/-- Entry (i, j) of a core's block after point `n`, the points' partial sums being `P`: at (0, 0) the sum of the partial
    sums of the core's points up to `n` (point `n` is step `n % 8` of its core, whose first point is `n - n % 8`), zero
    elsewhere. -/
def accVal (P : ℕ → EReal) (n i j : ℕ) : EReal :=
  if i = 0 ∧ j = 0 then ∑ s ∈ Finset.range (n % 8 + 1), P (n - n % 8 + s) else 0

/-- At a core's first point the block is zero plus the point's partial sum at (0, 0), zero plus zero elsewhere. -/
theorem accVal_reset (P : ℕ → EReal) (n i j : ℕ) (h : n % 8 = 0) :
    zeroW + (if i = 0 ∧ j = 0 then P n else zeroW) = accVal P n i j := by
  unfold accVal
  rw [zeroW_eq, h]
  by_cases hc : i = 0 ∧ j = 0
  · simp only [if_pos hc, zero_add, Finset.sum_range_one, Nat.sub_zero, Nat.add_zero]
  · simp only [if_neg hc, zero_add]

/-- At a later point the block gains the point's partial sum at (0, 0) and zero elsewhere. -/
theorem accVal_step (P : ℕ → EReal) (n i j : ℕ) (h : ¬(n + 1) % 8 = 0) :
    accVal P n i j + (if i = 0 ∧ j = 0 then P (n + 1) else zeroW) = accVal P (n + 1) i j := by
  unfold accVal
  rw [zeroW_eq]
  have h1 : (n + 1) % 8 = n % 8 + 1 := by omega
  have h2 : n + 1 - (n + 1) % 8 = n - n % 8 := by omega
  have e : n - n % 8 + (n % 8 + 1) = n + 1 := by omega
  by_cases hc : i = 0 ∧ j = 0
  · simp only [if_pos hc]
    rw [h2, h1, Finset.sum_range_succ (fun s => P (n - n % 8 + s)) (n % 8 + 1), e]
  · simp only [if_neg hc, add_zero]

/-- After a core's last point its block holds the sum of the core's eight partial sums at (0, 0). -/
theorem accVal_last (P : ℕ → EReal) (c i j : ℕ) :
    accVal P (8 * c + 7) i j = if i = 0 ∧ j = 0 then ∑ s : Fin 8, P (8 * c + s.val) else 0 := by
  unfold accVal
  have h1 : (8 * c + 7) % 8 + 1 = 8 := by omega
  have h2 : 8 * c + 7 - (8 * c + 7) % 8 = 8 * c := by omega
  rw [h1, h2, Finset.sum_range fun s => P (8 * c + s)]

/-- The two cores' final blocks laid one over the other as a [16, 128] array, every entry summed: the sum of all
    sixteen partial sums. -/
theorem sum_final (P : ℕ → EReal) :
    ∑ y : (⟨2, ![16, 128]⟩ : Shape).Idx, accVal P (8 * ((y 0).val / 8) + 7) ((y 0).val % 8) (y 1).val = ∑ t : Fin 16, P t.val := by
  rw [sum_idx2]
  show ∑ a : Fin 16, ∑ b : Fin 128, accVal P (8 * (a.val / 8) + 7) (a.val % 8) b.val = _
  have inner : ∀ a : Fin 16, ∑ b : Fin 128, accVal P (8 * (a.val / 8) + 7) (a.val % 8) b.val
      = if a.val % 8 = 0 then ∑ s : Fin 8, P (8 * (a.val / 8) + s.val) else 0 := by
    intro a
    rw [Finset.sum_eq_single (0 : Fin 128)]
    · rw [accVal_last]
      by_cases ha : a.val % 8 = 0
      · simp [ha]
      · simp [ha]
    · intro b _ hb
      have hb' : b.val ≠ 0 := fun h => hb (Fin.ext h)
      rw [accVal_last, if_neg (fun h => hb' h.2)]
    · intro h; exact absurd (Finset.mem_univ _) h
  simp only [inner]
  calc ∑ a : Fin 16, (if a.val % 8 = 0 then ∑ s : Fin 8, P (8 * (a.val / 8) + s.val) else 0)
      = ∑ c : Fin 2, ∑ i : Fin 8, (if (8 * c.val + i.val) % 8 = 0 then ∑ s : Fin 8, P (8 * ((8 * c.val + i.val) / 8) + s.val) else 0) :=
        (Cert.Hand.LibTile.sum_tiles (m := 2) (n := 8) rfl
          (fun a : Fin 16 => if a.val % 8 = 0 then ∑ s : Fin 8, P (8 * (a.val / 8) + s.val) else 0)).symm
    _ = ∑ c : Fin 2, ∑ s : Fin 8, P (8 * c.val + s.val) := by
        refine Finset.sum_congr rfl fun c _ => ?_
        rw [Finset.sum_eq_single (0 : Fin 8)]
        · have h0 : (8 * c.val + (0 : Fin 8).val) % 8 = 0 := by show (8 * c.val + 0) % 8 = 0; omega
          have h1 : (8 * c.val + (0 : Fin 8).val) / 8 = c.val := by show (8 * c.val + 0) / 8 = c.val; omega
          rw [if_pos h0, h1]
        · intro i _ hi
          have hi' : i.val ≠ 0 := fun h => hi (Fin.ext h)
          have hlt : i.val < 8 := i.isLt
          rw [if_neg (by omega)]
        · intro h; exact absurd (Finset.mem_univ _) h
    _ = ∑ t : Fin 16, P t.val := Cert.Hand.LibTile.sum_tiles (m := 2) (n := 8) rfl (fun t : Fin 16 => P t.val)

end Cert.Hand.Spec

end
-- ==== Proof.KernelPay.lean ====
/-
  The kernel body's arithmetic read at an index, at the exact values: what one grid point adds to each accumulator block.
-/
import proofs.«409631_j17102559773290_2_alg».proof.Proof.Gen.KernelIdeal.Skeleton
import proofs.«409631_j17102559773290_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Hand

/-! ## The keepdims layout forms read at an index -/

section Layout
variable {α : Type}

/-- A vector of `a` entries cast to a one-column array reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column array broadcast along its rows reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## The reductions along one axis of a two-axis array, read at an index -/

/-- The sum along the columns of an `[a, b]` array, read at row `q`: the sum over the row's `b` entries. -/
theorem sumCols_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (q : Fin a) :
    multiReduction .add [1] ⟨1, ![a]⟩ src acc h hφ hacc (ix1 q) = ∑ k : Fin b, src (ix2 q k) := by
  refine (Ideal.multiReduction_add_single src acc h hφ hacc (ix1 q)).trans ?_
  show ∑ k : Fin b, src (h.lift (ix1 q) k) = _
  refine Finset.sum_congr rfl fun k _ => congrArg src ?_
  funext c
  match c with
  | ⟨0, _⟩ => exact Fin.ext rfl
  | ⟨1, _⟩ => exact Fin.ext rfl

/-- The sum along the rows of a one-column array, read at its one entry: the sum over the column's `a` entries. -/
theorem sumRows_apply {a : ℕ} (src : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ) (u : Fin 1) :
    multiReduction .add [0] ⟨1, ![1]⟩ src acc h hφ hacc (ix1 u) = ∑ k : Fin a, src (ix2 k u) := by
  refine (Ideal.multiReduction_add_single src acc h hφ hacc (ix1 u)).trans ?_
  show ∑ k : Fin a, src (h.lift (ix1 u) k) = _
  refine Finset.sum_congr rfl fun k _ => congrArg src ?_
  funext c
  match c with
  | ⟨0, _⟩ => exact Fin.ext rfl
  | ⟨1, _⟩ => exact Fin.ext rfl

/-- The maximum along the columns of an `[a, b]` array, read at row `q`: the fold of `max` over the row's `b` entries
    from the value of the starting word. -/
theorem maxCols_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (q : Fin a) :
    multiReduction .maximumf [1] ⟨1, ![a]⟩ src acc h hφ hacc (ix1 q)
      = (Finset.univ : Finset (Fin b)).fold max (Ideal.ofBits .f32 acc) fun c => src (ix2 q c) := by
  refine (Ideal.multiReduction_maximumf_single src acc h hφ hacc (ix1 q)).trans ?_
  show (Finset.univ : Finset (Fin b)).fold max (Ideal.ofBits .f32 acc) (fun c => src (h.lift (ix1 q) c)) = _
  refine congrArg (fun f => (Finset.univ : Finset (Fin b)).fold max (Ideal.ofBits .f32 acc) f) (funext fun k => congrArg src ?_)
  funext c
  match c with
  | ⟨0, _⟩ => exact Fin.ext rfl
  | ⟨1, _⟩ => exact Fin.ext rfl

/-! ## The reset blocks -/

/-- The zero blocks the reset stores. -/
theorem pay4_apply (y : S8x128.Idx) : k0_pay4 (F := Ideal) y = Spec.zeroW := rfl
theorem pay5_apply (y : S8x128.Idx) : k0_pay5 (F := Ideal) y = Spec.zeroW := rfl

/-! ## The hinge partial -/

/-- The one-column array of the rows' sums of squares of shifted differences, as the body computes it, read at row `q`:
    the specification's sum for that row. -/
theorem sqCol_apply (x y : Vec Ideal S512x512 .f32) (q : Fin 512) (u : Fin 1) :
    shapeCast S512x1
        (multiReduction .add [1] S512
          (mulf (addf (subf x y) (broadcast S512x512 (Scalar.ofBits (F := Ideal) .f32 0x358637BD#32)))
            (addf (subf x y) (broadcast S512x512 (Scalar.ofBits (F := Ideal) .f32 0x358637BD#32))))
          0x00000000#32 reduces_S512x512_S512 (.inl rfl) rfl)
        shapeCasts_S512_S512x1 (ix2 q u)
      = Spec.sqDist x y q := by
  refine (shapeCast_a_a1_apply _ _ q u).trans ?_
  refine (sumCols_apply _ _ _ _ _ q).trans ?_
  rfl

/-- The point's hinge partial: the one entry of the [1, 1] value is the sum of the block's 512 rows' hinge terms. -/
theorem pay6_apply (x0 x1 x2 : Vec Ideal S512x512 .f32) :
    k0_pay6 (F := Ideal) x0 x1 x2 (ix2 (0 : Fin 1) (0 : Fin 1)) = ∑ q : Fin 512, Spec.hinge x0 x1 x2 q := by
  unfold k0_pay6
  refine (shapeCast_a_a1_apply _ _ (0 : Fin 1) (0 : Fin 1)).trans ?_
  refine (sumRows_apply _ _ _ _ _ (0 : Fin 1)).trans ?_
  refine Finset.sum_congr rfl fun q _ => ?_
  unfold Spec.hinge
  exact congrArg₂ max
    (congrArg₂ (fun s t : EReal => s - t) (congrArg Ideal.sqrt (sqCol_apply x0 x1 q 0)) (congrArg Ideal.sqrt (sqCol_apply x0 x2 q 0)))
    rfl

/-! ## The mask of entry (0, 0) and the accumulation through it -/

/-- The comparison of a number's word with the zero word is one exactly when the number is zero (the number below 2^32). -/
theorem cmpi_eq_zero (n : ℕ) (hn : n < 4294967296) :
    IntOp.cmpi .eq (BitVec.ofNat 32 n) 0#32 = if n = 0 then 1#1 else 0#1 := by
  by_cases h : n = 0
  · subst h; rw [if_pos rfl]; rfl
  · rw [if_neg h]
    have hne : BitVec.ofNat 32 n ≠ 0#32 := by
      intro he
      have h1 := congrArg BitVec.toNat he
      simp only [BitVec.toNat_ofNat] at h1
      omega
    have hb : (BitVec.ofNat 32 n == 0#32) = false := beq_eq_false_iff_ne.mpr hne
    show BitVec.ofBool (BitVec.ofNat 32 n == 0#32) = 0#1
    rw [hb]; rfl

/-- The mask is one at entry (0, 0) of the block and zero at every other entry: it is the conjunction of "the row's
    number is zero" and "the column's number is zero". -/
theorem mask_apply (r : Fin 8) (c : Fin 128) : k0_pay1 (ix2 r c) = if r.val = 0 ∧ c.val = 0 then 1#1 else 0#1 := by
  have e0 : iota .tc S8x128 32 [0] iota_S8x128_d0_w32 (ix2 r c) = BitVec.ofNat 32 r.val :=
    iota_single_apply .tc S8x128 32 0 _ (ix2 r c)
  have e1 : iota .tc S8x128 32 [1] iota_S8x128_d1_w32 (ix2 r c) = BitVec.ofNat 32 c.val :=
    iota_single_apply .tc S8x128 32 1 _ (ix2 r c)
  have h : k0_pay1 (ix2 r c)
      = IntOp.andi (IntOp.cmpi .eq (BitVec.ofNat 32 r.val) 0#32) (IntOp.cmpi .eq (BitVec.ofNat 32 c.val) 0#32) := by
    unfold k0_pay1
    exact congrArg₂ IntOp.andi (congrArg (fun w => IntOp.cmpi .eq w 0#32) e0) (congrArg (fun w => IntOp.cmpi .eq w 0#32) e1)
  rw [h, cmpi_eq_zero r.val (by have := r.isLt; omega), cmpi_eq_zero c.val (by have := c.isLt; omega)]
  by_cases hr : r.val = 0
  · by_cases hc : c.val = 0
    · rw [if_pos hr, if_pos hc, if_pos ⟨hr, hc⟩]; decide
    · rw [if_pos hr, if_neg hc, if_neg (fun h => hc h.2)]; decide
  · by_cases hc : c.val = 0
    · rw [if_neg hr, if_pos hc, if_neg (fun h => hr h.1)]; decide
    · rw [if_neg hr, if_neg hc, if_neg (fun h => hr h.1)]; decide

/-- A block plus the selection, through the mask, of a [1, 1] value broadcast over the block against zero: at entry
    (0, 0) the block's entry plus the value's one entry, elsewhere the block's entry plus zero. -/
theorem acc_apply (w : FVec Ideal S1x1 .f32) (v : Vec Ideal S8x128 .f32) (r : Fin 8) (c : Fin 128) :
    addf (shapeCast S8x128 v shapeCasts_S8x128_S8x128)
        (select k0_pay1 (broadcastTo S8x128 (shapeCast S1x1 w shapeCasts_S1x1_S1x1) broadcasts_S1x1_S8x128)
          (broadcast S8x128 (Scalar.ofBits (F := Ideal) .f32 0x00000000#32))) (ix2 r c)
      = v (ix2 r c) + (if r.val = 0 ∧ c.val = 0 then w (ix2 (0 : Fin 1) (0 : Fin 1)) else Spec.zeroW) := by
  have hv : shapeCast S8x128 v shapeCasts_S8x128_S8x128 = v := shapeCast_self v _
  have hw : shapeCast S1x1 w shapeCasts_S1x1_S1x1 = w := shapeCast_self w _
  show shapeCast S8x128 v shapeCasts_S8x128_S8x128 (ix2 r c)
      + Scalar.select (k0_pay1 (ix2 r c))
          (broadcastTo S8x128 (shapeCast S1x1 w shapeCasts_S1x1_S1x1) broadcasts_S1x1_S8x128 (ix2 r c)) Spec.zeroW = _
  rw [hv, hw, broadcastTo_11_ab_apply w broadcasts_S1x1_S8x128 r c, mask_apply]
  by_cases h : r.val = 0 ∧ c.val = 0
  · rw [if_pos h, if_pos h, select_one]
  · rw [if_neg h, if_neg h, select_zero]

/-- What is stored back to the first accumulator: the block read before plus, at entry (0, 0) only, the [1, 1] value. -/
theorem pay2_apply (v24 : FVec Ideal S1x1 .f32) (v62 : Vec Ideal S8x128 .f32) (y : S8x128.Idx) :
    k0_pay2 (F := Ideal) v24 v62 y
      = v62 y + (if (y 0).val = 0 ∧ (y 1).val = 0 then v24 (ix2 (0 : Fin 1) (0 : Fin 1)) else Spec.zeroW) := by
  obtain ⟨r, c, rfl⟩ : ∃ (r : Fin 8) (c : Fin 128), y = ix2 r c := ⟨y 0, y 1, eq_ix2 y⟩
  unfold k0_pay2
  exact acc_apply v24 v62 r c

/-! ## The log-probability partial -/

/-- The one-column array of the rows' largest logits, read at row `q`: the specification's row maximum. -/
theorem pay7_apply (x3 : Vec Ideal S512x1000 .f32) (q : Fin 512) (u : Fin 1) :
    k0_pay7 (F := Ideal) x3 (ix2 q u) = Spec.rowMax x3 q := by
  unfold k0_pay7
  refine (shapeCast_a_a1_apply _ _ q u).trans ?_
  refine (maxCols_apply _ _ _ _ _ q).trans ?_
  rfl

/-- The one-column array of the logarithms of the rows' sums of exponentials of logits less the row's largest, read at
    row `q`: the specification's term for that row. -/
theorem pay8_apply (x3 : Vec Ideal S512x1000 .f32) (q : Fin 512) (u : Fin 1) :
    k0_pay8 (F := Ideal) x3 (ix2 q u) = Spec.logSumExp x3 q := by
  unfold k0_pay8 Spec.logSumExp
  refine congrArg Ideal.log ((shapeCast_a_a1_apply _ _ q u).trans ((sumCols_apply _ _ _ _ _ q).trans ?_))
  refine Finset.sum_congr rfl fun k _ => ?_
  refine congrArg Ideal.exp ?_
  refine congrArg (fun t : EReal => x3 (ix2 q k) - t) ?_
  exact (broadcastTo_a1_ab_apply _ _ q k).trans (pay7_apply x3 q 0)

/-- The one-column array of the rows' selected logits, read at row `q`: the sum over the thousand columns of the logit
    where the column's number is the row's label word and of zero elsewhere. -/
theorem pickedCol_apply (x3 : Vec Ideal S512x1000 .f32) (x4 : Vec Ideal S512x1 .i32) (q : Fin 512) (u : Fin 1) :
    shapeCast S512x1
        (multiReduction .add [1] S512
          (select
            (cmpi .eq (iota .tc S512x1000 32 [1] iota_S512x1000_d1_w32)
              (broadcastTo S512x1000 (k0_pay9 (F := Ideal) x4) broadcasts_S512x1_S512x1000))
            x3 (broadcast S512x1000 (Scalar.ofBits (F := Ideal) .f32 0x00000000#32)))
          0x00000000#32 reduces_S512x1000_S512 (.inl rfl) rfl)
        shapeCasts_S512_S512x1 (ix2 q u)
      = Spec.picked x3 (x4 (ix2 q (0 : Fin 1))) q := by
  refine (shapeCast_a_a1_apply _ _ q u).trans ?_
  refine (sumCols_apply _ _ _ _ _ q).trans ?_
  unfold Spec.picked
  refine Finset.sum_congr rfl fun c _ => ?_
  have e0 : iota .tc S512x1000 32 [1] iota_S512x1000_d1_w32 (ix2 q c) = BitVec.ofNat 32 c.val :=
    iota_single_apply .tc S512x1000 32 1 _ (ix2 q c)
  have e1 : broadcastTo S512x1000 (k0_pay9 (F := Ideal) x4) broadcasts_S512x1_S512x1000 (ix2 q c) = x4 (ix2 q (0 : Fin 1)) := by
    refine (broadcastTo_a1_ab_apply _ _ q c).trans ?_
    unfold k0_pay9
    exact congrFun (shapeCast_self x4 _) _
  exact congrArg₂ (fun a b : BitVec 32 => Scalar.select (IntOp.cmpi .eq a b) (x3 (ix2 q c)) Spec.zeroW) e0 e1

/-- What is stored back to the second accumulator: the block read before plus, at entry (0, 0) only, the sum of the
    block's 512 rows' log-probabilities of their labels. -/
theorem pay3_apply (x3 : Vec Ideal S512x1000 .f32) (x4 : Vec Ideal S512x1 .i32) (v66 : Vec Ideal S8x128 .f32) (y : S8x128.Idx) :
    k0_pay3 (F := Ideal) x3 (k0_pay7 x3) (k0_pay8 x3) (k0_pay9 x4) (iota .tc S512x1000 32 [1] iota_S512x1000_d1_w32) v66 y
      = v66 y + (if (y 0).val = 0 ∧ (y 1).val = 0
          then ∑ q : Fin 512, Spec.logp x3 (fun q => x4 (ix2 q (0 : Fin 1))) q else Spec.zeroW) := by
  obtain ⟨r, c, rfl⟩ : ∃ (r : Fin 8) (c : Fin 128), y = ix2 r c := ⟨y 0, y 1, eq_ix2 y⟩
  unfold k0_pay3
  refine (acc_apply _ v66 r c).trans
    (congrArg (fun t : EReal => v66 (ix2 r c) + (if r.val = 0 ∧ c.val = 0 then t else Spec.zeroW)) ?_)
  refine (shapeCast_a_a1_apply _ _ (0 : Fin 1) (0 : Fin 1)).trans ?_
  refine (sumRows_apply _ _ _ _ _ (0 : Fin 1)).trans ?_
  refine Finset.sum_congr rfl fun q _ => ?_
  unfold Spec.logp
  exact congrArg₂ (fun s t : EReal => s - t)
    (congrArg₂ (fun s t : EReal => s - t) (pickedCol_apply x3 x4 q 0) (pay7_apply x3 q 0)) (pay8_apply x3 q 0)

end Cert.KernelIdeal.Pay

end
-- ==== Proof.KernelAcc.lean ====
/-
  What the two accumulator blocks hold after every grid point, at the exact values.

  Point `n` is step `n % 8` of its core. Its contribution to the first accumulator is the sum of its 512 rows' hinge
  terms, to the second the sum of their log-probabilities. After point `n` each block holds, at entry (0, 0), the sum of
  its core's contributions so far, and zero elsewhere: at a core's first point the block is reset to zero and gains the
  point's contribution, at a later point it keeps what the point before left and gains the point's contribution. By
  induction on the point.
-/
import proofs.«409631_j17102559773290_2_alg».proof.Proof.KernelPieces
import proofs.«409631_j17102559773290_2_alg».proof.Proof.KernelPay
import proofs.«409631_j17102559773290_2_alg».proof.Proof.Spec

noncomputable section

namespace Cert.KernelIdeal.Acc

open Idealize.ShloMosaic Idealize.ShloMosaic.TcCoe Idealize.ShloMosaic.ValueIdx Idealize.SL.Sem
open Cert.KernelIdeal Cert.KernelIdeal.Gen Cert.Hand

variable (m : (ℓ : Loc nD τ sig) → Buf (Elt Ideal) ℓ)

/-- The five input blocks of a point, each at its literal type: anchor, positive, negative, logits, labels. -/
abbrev xa (c : Dev nD) (t : Fin cfg0.N) : Vec Ideal S512x512 .f32 := iblk m c 0 t
abbrev xp (c : Dev nD) (t : Fin cfg0.N) : Vec Ideal S512x512 .f32 := iblk m c 1 t
abbrev xn (c : Dev nD) (t : Fin cfg0.N) : Vec Ideal S512x512 .f32 := iblk m c 2 t
abbrev xo (c : Dev nD) (t : Fin cfg0.N) : Vec Ideal S512x1000 .f32 := iblk m c 3 t
abbrev xl (c : Dev nD) (t : Fin cfg0.N) : Vec Ideal S512x1 .i32 := iblk m c 4 t

/-- Point `n`'s contribution to the first accumulator: its rows' hinge terms, summed (zero past the grid). -/
def P5 (c : Dev nD) (n : ℕ) : EReal :=
  if h : n < cfg0.N then ∑ q : Fin 512, Spec.hinge (xa m c ⟨n, h⟩) (xp m c ⟨n, h⟩) (xn m c ⟨n, h⟩) q else 0

/-- Point `n`'s contribution to the second accumulator: its rows' log-probabilities, summed (zero past the grid). -/
def P6 (c : Dev nD) (n : ℕ) : EReal :=
  if h : n < cfg0.N then ∑ q : Fin 512, Spec.logp (xo m c ⟨n, h⟩) (fun q => xl m c ⟨n, h⟩ (ix2 q (0 : Fin 1))) q else 0

theorem P5_at (c : Dev nD) (t : Fin cfg0.N) :
    P5 m c t.val = ∑ q : Fin 512, Spec.hinge (xa m c t) (xp m c t) (xn m c t) q := by
  unfold P5; rw [dif_pos t.isLt]

theorem P6_at (c : Dev nD) (t : Fin cfg0.N) :
    P6 m c t.val = ∑ q : Fin 512, Spec.logp (xo m c t) (fun q => xl m c t (ix2 q (0 : Fin 1))) q := by
  unfold P6; rw [dif_pos t.isLt]

/-- The two blocks after point `n`. -/
abbrev acc5 (c : Dev nD) (n : ℕ) : Vec Ideal S8x128 .f32 := fun y => Spec.accVal (P5 m c) n (y 0).val (y 1).val
abbrev acc6 (c : Dev nD) (n : ℕ) : Vec Ideal S8x128 .f32 := fun y => Spec.accVal (P6 m c) n (y 0).val (y 1).val

/-- A core's first point: zero plus the contribution. -/
theorem reset5 (c : Dev nD) (t : Fin cfg0.N) (h0 : t.val % 8 = 0) :
    k0_pay2 (F := Ideal) (k0_pay6 (xa m c t) (xp m c t) (xn m c t)) (k0_pay4 (F := Ideal)) = acc5 m c t.val := by
  funext y
  rw [Pay.pay2_apply, Pay.pay6_apply, Pay.pay4_apply, ← P5_at]
  exact Spec.accVal_reset (P5 m c) t.val (y 0).val (y 1).val h0

theorem reset6 (c : Dev nD) (t : Fin cfg0.N) (h0 : t.val % 8 = 0) :
    k0_pay3 (F := Ideal) (xo m c t) (k0_pay7 (xo m c t)) (k0_pay8 (xo m c t)) (k0_pay9 (xl m c t)) Pieces.cols (k0_pay5 (F := Ideal))
      = acc6 m c t.val := by
  funext y
  rw [Pay.pay3_apply, Pay.pay5_apply, ← P6_at]
  exact Spec.accVal_reset (P6 m c) t.val (y 0).val (y 1).val h0

/-- A later point: what the point before left plus the contribution. -/
theorem step5 (c : Dev nD) (t : Fin cfg0.N) (h0 : ¬t.val % 8 = 0) (prev : Vec Ideal S8x128 .f32)
    (hprev : prev = acc5 m c (t.val - 1)) :
    k0_pay2 (F := Ideal) (k0_pay6 (xa m c t) (xp m c t) (xn m c t)) prev = acc5 m c t.val := by
  subst hprev
  funext y
  rw [Pay.pay2_apply, Pay.pay6_apply, ← P5_at]
  have ht : t.val - 1 + 1 = t.val := by omega
  have hs := Spec.accVal_step (P5 m c) (t.val - 1) (y 0).val (y 1).val (by rw [ht]; exact h0)
  rw [ht] at hs
  exact hs

theorem step6 (c : Dev nD) (t : Fin cfg0.N) (h0 : ¬t.val % 8 = 0) (prev : Vec Ideal S8x128 .f32)
    (hprev : prev = acc6 m c (t.val - 1)) :
    k0_pay3 (F := Ideal) (xo m c t) (k0_pay7 (xo m c t)) (k0_pay8 (xo m c t)) (k0_pay9 (xl m c t)) Pieces.cols prev
      = acc6 m c t.val := by
  subst hprev
  funext y
  rw [Pay.pay3_apply, ← P6_at]
  have ht : t.val - 1 + 1 = t.val := by omega
  have hs := Spec.accVal_step (P6 m c) (t.val - 1) (y 0).val (y 1).val (by rw [ht]; exact h0)
  rw [ht] at hs
  exact hs

/-- THE INVARIANT: after point `n` the two staging blocks are the accumulator blocks of the points so far. -/
theorem outsAt_eq (c : Dev nD) : ∀ (n : ℕ) (h : n < cfg0.N), outsAt0 m c n h = (acc5 m c n, acc6 m c n)
  | 0, h => by
    rw [outsAt0_A m c ⟨0, h⟩ rfl, Pieces.out_A_5, Pieces.out_A_6]
    exact Prod.ext (reset5 m c ⟨0, h⟩ rfl) (reset6 m c ⟨0, h⟩ rfl)
  | n + 1, h => by
    by_cases h0 : (n + 1) % 8 = 0
    · rw [outsAt0_A m c ⟨n + 1, h⟩ h0, Pieces.out_A_5, Pieces.out_A_6]
      exact Prod.ext (reset5 m c ⟨n + 1, h⟩ h0) (reset6 m c ⟨n + 1, h⟩ h0)
    · have ih := outsAt_eq c n (Nat.lt_of_succ_lt h)
      rw [outsAt0_B m c ⟨n + 1, h⟩ h0, Pieces.out_B_5, Pieces.out_B_6]
      exact Prod.ext (step5 m c ⟨n + 1, h⟩ h0 _ (congrArg Prod.fst ih)) (step6 m c ⟨n + 1, h⟩ h0 _ (congrArg Prod.snd ih))

end Cert.KernelIdeal.Acc

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBlocks.lean ====
/-
  A point's input blocks against the argument arrays: row `q` of the block at point `t` is row `512 t + q` of the array,
  every column kept; the labels' block is read through the column the host lays the label vector out as. So a point's
  contribution to each accumulator is the sum of the row terms of the batch's rows `512 t` to `512 t + 511`.
-/
import proofs.«409631_j17102559773290_2_alg».proof.Proof.KernelAcc
import proofs.«409631_j17102559773290_2_alg».proof.Proof.LibColumn
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen Cert.Hand

variable (m : (ℓ : Loc nD τ sig) → Buf (Elt Ideal) ℓ)

/-- The printed index maps, decided once over the grid: every input window's block at point `t` is block `t` along the
    rows and block 0 along the columns. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem N16 : cfg0.N = 16 := N_0

/-- Row `q` of block `t` is a row of the batch. -/
theorem row_lt (t : Fin cfg0.N) (q : Fin 512) : 512 * t.val + q.val < 8192 :=
  Spec.row_lt (lt_of_lt_of_eq t.isLt N16) q.isLt

/-- The argument arrays as launched. -/
abbrev arrA (c : Dev nD) : Vec Ideal S8192x512 .f32 := m ((c : Thread nD τ).loc main_arg0)
abbrev arrP (c : Dev nD) : Vec Ideal S8192x512 .f32 := m ((c : Thread nD τ).loc main_arg1)
abbrev arrN (c : Dev nD) : Vec Ideal S8192x512 .f32 := m ((c : Thread nD τ).loc main_arg2)
abbrev arrO (c : Dev nD) : Vec Ideal S8192x1000 .f32 := m ((c : Thread nD τ).loc main_arg3)
abbrev arrL (c : Dev nD) : Vec Ideal S8192 .i32 := m ((c : Thread nD τ).loc main_arg4)

theorem xa_read (c : Dev nD) (t : Fin cfg0.N) (q k : Fin 512) :
    Acc.xa m c t (ix2 q k) = arrA m c (ix2 ⟨512 * t.val + q.val, row_lt t q⟩ k) := by
  show V m c main_arg0 (((cfg0.win 0).blk t).view.emb (ix2 q k)) = _
  rw [V_main_arg0]
  obtain ⟨e0, e1, -⟩ := idx_in t
  refine congrArg (m ((c : Thread nD τ).loc main_arg0)) (funext fun a => Fin.ext ?_)
  match a with
  | ⟨0, _⟩ => show win0_0.index t (0 : Fin 2) * 512 + 1 * q.val = 512 * t.val + q.val; rw [e0]; omega
  | ⟨1, _⟩ => show win0_0.index t (1 : Fin 2) * 512 + 1 * k.val = k.val; rw [e1]; omega

theorem xp_read (c : Dev nD) (t : Fin cfg0.N) (q k : Fin 512) :
    Acc.xp m c t (ix2 q k) = arrP m c (ix2 ⟨512 * t.val + q.val, row_lt t q⟩ k) := by
  show V m c main_arg1 (((cfg0.win 1).blk t).view.emb (ix2 q k)) = _
  rw [V_main_arg1]
  obtain ⟨-, -, e0, e1, -⟩ := idx_in t
  refine congrArg (m ((c : Thread nD τ).loc main_arg1)) (funext fun a => Fin.ext ?_)
  match a with
  | ⟨0, _⟩ => show win0_1.index t (0 : Fin 2) * 512 + 1 * q.val = 512 * t.val + q.val; rw [e0]; omega
  | ⟨1, _⟩ => show win0_1.index t (1 : Fin 2) * 512 + 1 * k.val = k.val; rw [e1]; omega

theorem xn_read (c : Dev nD) (t : Fin cfg0.N) (q k : Fin 512) :
    Acc.xn m c t (ix2 q k) = arrN m c (ix2 ⟨512 * t.val + q.val, row_lt t q⟩ k) := by
  show V m c main_arg2 (((cfg0.win 2).blk t).view.emb (ix2 q k)) = _
  rw [V_main_arg2]
  obtain ⟨-, -, -, -, e0, e1, -⟩ := idx_in t
  refine congrArg (m ((c : Thread nD τ).loc main_arg2)) (funext fun a => Fin.ext ?_)
  match a with
  | ⟨0, _⟩ => show win0_2.index t (0 : Fin 2) * 512 + 1 * q.val = 512 * t.val + q.val; rw [e0]; omega
  | ⟨1, _⟩ => show win0_2.index t (1 : Fin 2) * 512 + 1 * k.val = k.val; rw [e1]; omega

theorem xo_read (c : Dev nD) (t : Fin cfg0.N) (q : Fin 512) (k : Fin 1000) :
    Acc.xo m c t (ix2 q k) = arrO m c (ix2 ⟨512 * t.val + q.val, row_lt t q⟩ k) := by
  show V m c main_arg3 (((cfg0.win 3).blk t).view.emb (ix2 q k)) = _
  rw [V_main_arg3]
  obtain ⟨-, -, -, -, -, -, e0, e1, -⟩ := idx_in t
  refine congrArg (m ((c : Thread nD τ).loc main_arg3)) (funext fun a => Fin.ext ?_)
  match a with
  | ⟨0, _⟩ => show win0_3.index t (0 : Fin 2) * 512 + 1 * q.val = 512 * t.val + q.val; rw [e0]; omega
  | ⟨1, _⟩ => show win0_3.index t (1 : Fin 2) * 1000 + 1 * k.val = k.val; rw [e1]; omega

/-- The labels' array as the region finds it: the label vector laid out as a column by the one host line before the
    region. -/
theorem V_labels (c : Dev nD) :
    (V m c main_v0 : S8192x1.Idx → BitVec 32) = shapeCast S8192x1 (arrL m c) shapeCasts_S8192_S8192x1 := by
  show StableHlo.after hostOps0 (fun b => m (c, b)) (Proc.devRef .tc main_v0) = _
  after_results
  rfl

theorem xl_read (c : Dev nD) (t : Fin cfg0.N) (q : Fin 512) :
    Acc.xl m c t (ix2 q (0 : Fin 1)) = arrL m c (ix1 ⟨512 * t.val + q.val, row_lt t q⟩) := by
  show V m c main_v0 (((cfg0.win 4).blk t).view.emb (ix2 q (0 : Fin 1))) = _
  rw [V_labels]
  obtain ⟨-, -, -, -, -, -, -, -, e0, e1⟩ := idx_in t
  have hi : ((cfg0.win 4).blk t).view.emb (ix2 q (0 : Fin 1)) = ix2 (⟨512 * t.val + q.val, row_lt t q⟩ : Fin 8192) (0 : Fin 1) := by
    funext a; apply Fin.ext
    match a with
    | ⟨0, _⟩ => show win0_4.index t (0 : Fin 2) * 512 + 1 * q.val = 512 * t.val + q.val; rw [e0]; omega
    | ⟨1, _⟩ => show win0_4.index t (1 : Fin 2) * 1 + 1 * 0 = 0; rw [e1]
  rw [hi]
  exact Cert.LibColumn.shapeCast_a_a1_apply (arrL m c) shapeCasts_S8192_S8192x1 _ _

/-- The label word of a row of the batch. -/
abbrev lab (c : Dev nD) : Fin 8192 → BitVec 32 := fun r => arrL m c (ix1 r)

/-- A point's contributions, over the batch's rows. -/
theorem P5_rows (c : Dev nD) (t : Fin cfg0.N) :
    Acc.P5 m c t.val = ∑ q : Fin 512, Spec.hinge (arrA m c) (arrP m c) (arrN m c) ⟨512 * t.val + q.val, row_lt t q⟩ := by
  rw [Acc.P5_at]
  exact Finset.sum_congr rfl fun q _ =>
    Spec.hinge_block (arrA m c) (arrP m c) (arrN m c) _ _ _ t.val (lt_of_lt_of_eq t.isLt N16)
      (fun q k => xa_read m c t q k) (fun q k => xp_read m c t q k) (fun q k => xn_read m c t q k) q

theorem P6_rows (c : Dev nD) (t : Fin cfg0.N) :
    Acc.P6 m c t.val = ∑ q : Fin 512, Spec.logp (arrO m c) (lab m c) ⟨512 * t.val + q.val, row_lt t q⟩ := by
  rw [Acc.P6_at]
  exact Finset.sum_congr rfl fun q _ =>
    Spec.logp_block (arrO m c) (lab m c) _ _ t.val (lt_of_lt_of_eq t.isLt N16)
      (fun q k => xo_read m c t q k) (fun q => xl_read m c t q) q

/-- All sixteen contributions together are the totals over the batch. -/
theorem sum_P5 (c : Dev nD) : ∑ t : Fin 16, Acc.P5 m c t.val = Spec.hingeTotal (arrA m c) (arrP m c) (arrN m c) := by
  unfold Spec.hingeTotal
  rw [← Spec.sum_blocks]
  exact Finset.sum_congr rfl fun t _ => P5_rows m c ⟨t.val, lt_of_lt_of_eq t.isLt N16.symm⟩

theorem sum_P6 (c : Dev nD) : ∑ t : Fin 16, Acc.P6 m c t.val = Spec.logpTotal (arrO m c) (lab m c) := by
  unfold Spec.logpTotal
  rw [← Spec.sum_blocks]
  exact Finset.sum_congr rfl fun t _ => P6_rows m c ⟨t.val, lt_of_lt_of_eq t.isLt N16.symm⟩

end Cert.KernelIdeal.Blocks

end
-- ==== Proof.Consts.lean ====
/-
  The float words this certificate evaluates, as the extended reals they denote: the divisor 8192.0, a nonzero real, and
  with it the one law the two programs' order of negating and dividing needs: dividing by it commutes with negation on
  every extended real. Stated once, here, so that no other module unfolds a word.
-/
import Idealize.ShloMosaic.PureOps.Ideal

noncomputable section

namespace Cert.Hand.Consts

open Idealize.ShloMosaic

/-- The word `0x46000000` is the real 8192. -/
theorem ofBits_8192 : Ideal.ofBits .f32 0x46000000#32 = ((8192 : ℝ) : EReal) := by
  simp [Ideal.ofBits, Ideal.ieee, -EReal.coe_mul]; norm_num

/-- Dividing by 8192 commutes with negation: off a zero divisor the quotient is the product with the inverse, and a
    product's sign moves through. -/
theorem div_neg_8192 (s : EReal) :
    Ideal.div (-s) (Ideal.ofBits .f32 0x46000000#32) = -(Ideal.div s (Ideal.ofBits .f32 0x46000000#32)) := by
  rw [ofBits_8192, Ideal.div_coe (by norm_num : (8192 : ℝ) ≠ 0), Ideal.div_coe (by norm_num : (8192 : ℝ) ≠ 0), EReal.neg_mul]

end Cert.Hand.Consts

end
-- ==== Proof.KernelFinal.lean ====
/-
  The kernel's run read to its three results.

  Each accumulator's array has two blocks of eight rows, one per core, written back once, after the core's last point;
  so the array ends holding, at entries (0, 0) and (8, 0), the two cores' sums of contributions and zero elsewhere. The
  host lines after the region sum each array's every entry from zero — the sum over all sixteen points' contributions,
  which is the total over the batch's rows —, negate and divide the second by 8192, and add a tenth of the first.
-/
import proofs.«409631_j17102559773290_2_alg».proof.Proof.KernelBlocks
import proofs.«409631_j17102559773290_2_alg».proof.Proof.Consts
import Idealize.ShloMosaic.Lib.Pipeline.Value
import Idealize.ShloMosaic.Lib.StableHlo.Run
import Idealize.ShloMosaic.PureOps.Ideal.Laws

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.Hand Cert.KernelIdeal.Blocks

variable (m : (ℓ : Loc nD τ sig) → Buf (Elt Ideal) ℓ) (ρ : Dev nD → PrngReg)

/-- The output windows' index maps, decided once over the grid: point `t`'s block is block `t / 8` along the rows. -/
theorem idx_out5 : ∀ t : Fin cfg0.N, win0_5.index t (0 : Fin 2) = t.val / 8 ∧ win0_5.index t (1 : Fin 2) = 0 :=
  (by decide +kernel : ∀ t : Fin grid0.N, _)
theorem idx_out6 : ∀ t : Fin cfg0.N, win0_6.index t (0 : Fin 2) = t.val / 8 ∧ win0_6.index t (1 : Fin 2) = 0 :=
  (by decide +kernel : ∀ t : Fin grid0.N, _)

/-- The array of output window 5 after the run: rows `8 k` to `8 k + 7` are core `k`'s block after its last point. -/
abbrev G5fn (c : Dev nD) : Vec Ideal S16x128 .f32 :=
  fun Y => Spec.accVal (Acc.P5 m c) (8 * ((Y 0).val / 8) + 7) ((Y 0).val % 8) (Y 1).val
abbrev G5 (c : Dev nD) : Buf (Elt Ideal) ((c : Thread nD τ).loc main_v1_0) := G5fn m c

/-- What a core's last point writes back is its block of that array: the block sits at rows `8 (t / 8)` on, and `t` is
    the last point of core `t / 8`. -/
theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  obtain ⟨e0, e1⟩ := idx_out5 t
  show (cfg0.win 5).cut (grid0.coords t) ((dats m 0 c).after 5 t) = _
  rw [after0_5, Acc.outsAt_eq]
  funext j
  have hj : (j 0).val < 8 := (j 0).isLt
  have c0 : (((cfg0.win 5).blk t).view.emb j 0).val = win0_5.index t (0 : Fin 2) * 8 + 1 * (j 0).val := rfl
  have c1 : (((cfg0.win 5).blk t).view.emb j 1).val = win0_5.index t (1 : Fin 2) * 128 + 1 * (j 1).val := rfl
  show Spec.accVal (Acc.P5 m c) t.val (j 0).val (j 1).val
    = Spec.accVal (Acc.P5 m c) (8 * ((((cfg0.win 5).blk t).view.emb j 0).val / 8) + 7)
        ((((cfg0.win 5).blk t).view.emb j 0).val % 8) (((cfg0.win 5).blk t).view.emb j 1).val
  rw [c0, c1, e0, e1]
  have a1 : 8 * ((t.val / 8 * 8 + 1 * (j 0).val) / 8) + 7 = t.val := by omega
  have a2 : (t.val / 8 * 8 + 1 * (j 0).val) % 8 = (j 0).val := by omega
  have a3 : 0 * 128 + 1 * (j 1).val = (j 1).val := by omega
  rw [a1, a2, a3]

/-- An index of the array is in point `t`'s block iff each coordinate is in the block's range on its axis. -/
theorem mem_blk5 (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v1_0).slice (win0_5.rect t)).set ↔ _
  rw [View.set_slice_whole, Rect.mem_set_unit]
  exact Iff.rfl

/-- Every index of the array lies in the block some core's last point writes back. -/
theorem cover5 (i : S16x128.Idx) : ∃ t : Fin cfg0.N, (cfg0.win 5).flush t = true ∧ i ∈ ((cfg0.win 5).blk t).view.set := by
  have hi0 : (i 0).val < 16 := (i 0).isLt
  have hi1 : (i 1).val < 128 := (i 1).isLt
  have hlt : 8 * ((i 0).val / 8) + 7 < cfg0.N := by rw [Blocks.N16]; omega
  obtain ⟨e0, e1⟩ := idx_out5 ⟨8 * ((i 0).val / 8) + 7, hlt⟩
  refine ⟨⟨8 * ((i 0).val / 8) + 7, hlt⟩, (flush0_5 _).mpr (by show (8 * ((i 0).val / 8) + 7) % 8 = 7; omega), ?_⟩
  rw [mem_blk5]
  intro a
  match a with
  | ⟨0, _⟩ =>
    show win0_5.index ⟨8 * ((i 0).val / 8) + 7, hlt⟩ (0 : Fin 2) * 8 ≤ (i 0).val ∧ (i 0).val < win0_5.index ⟨8 * ((i 0).val / 8) + 7, hlt⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win0_5.index ⟨8 * ((i 0).val / 8) + 7, hlt⟩ (1 : Fin 2) * 128 ≤ (i 1).val ∧ (i 1).val < win0_5.index ⟨8 * ((i 0).val / 8) + 7, hlt⟩ (1 : Fin 2) * 128 + 128
    rw [e1]; omega

/-- So the array ends holding it. -/
theorem final5 (c : Dev nD) : (dats m 0 c).arrAt 5 cfg0.N = G5 m c :=
  (dats m 0 c).arrAt_eq_of_cover 5 (G5 m c) (flushed5_eq m c) cover5

/-- The array of output window 6 after the run: rows `8 k` to `8 k + 7` are core `k`'s block after its last point. -/
abbrev G6fn (c : Dev nD) : Vec Ideal S16x128 .f32 :=
  fun Y => Spec.accVal (Acc.P6 m c) (8 * ((Y 0).val / 8) + 7) ((Y 0).val % 8) (Y 1).val
abbrev G6 (c : Dev nD) : Buf (Elt Ideal) ((c : Thread nD τ).loc main_v1_1) := G6fn m c

/-- What a core's last point writes back is its block of that array: the block sits at rows `8 (t / 8)` on, and `t` is
    the last point of core `t / 8`. -/
theorem flushed6_eq (c : Dev nD) (t : Fin cfg0.N) (hf : (cfg0.win 6).flush t = true) :
    (dats m 0 c).flushed 6 t = ((cfg0.win 6).blk t).view.read (Elt Ideal) (G6 m c) := by
  have h7 : t.val % 8 = 7 := (flush0_6 t).mp hf
  obtain ⟨e0, e1⟩ := idx_out6 t
  show (cfg0.win 6).cut (grid0.coords t) ((dats m 0 c).after 6 t) = _
  rw [after0_6, Acc.outsAt_eq]
  funext j
  have hj : (j 0).val < 8 := (j 0).isLt
  have c0 : (((cfg0.win 6).blk t).view.emb j 0).val = win0_6.index t (0 : Fin 2) * 8 + 1 * (j 0).val := rfl
  have c1 : (((cfg0.win 6).blk t).view.emb j 1).val = win0_6.index t (1 : Fin 2) * 128 + 1 * (j 1).val := rfl
  show Spec.accVal (Acc.P6 m c) t.val (j 0).val (j 1).val
    = Spec.accVal (Acc.P6 m c) (8 * ((((cfg0.win 6).blk t).view.emb j 0).val / 8) + 7)
        ((((cfg0.win 6).blk t).view.emb j 0).val % 8) (((cfg0.win 6).blk t).view.emb j 1).val
  rw [c0, c1, e0, e1]
  have a1 : 8 * ((t.val / 8 * 8 + 1 * (j 0).val) / 8) + 7 = t.val := by omega
  have a2 : (t.val / 8 * 8 + 1 * (j 0).val) % 8 = (j 0).val := by omega
  have a3 : 0 * 128 + 1 * (j 1).val = (j 1).val := by omega
  rw [a1, a2, a3]

/-- An index of the array is in point `t`'s block iff each coordinate is in the block's range on its axis. -/
theorem mem_blk6 (t : Fin cfg0.N) (i : S16x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v1_1).slice (win0_6.rect t)).set ↔ _
  rw [View.set_slice_whole, Rect.mem_set_unit]
  exact Iff.rfl

/-- Every index of the array lies in the block some core's last point writes back. -/
theorem cover6 (i : S16x128.Idx) : ∃ t : Fin cfg0.N, (cfg0.win 6).flush t = true ∧ i ∈ ((cfg0.win 6).blk t).view.set := by
  have hi0 : (i 0).val < 16 := (i 0).isLt
  have hi1 : (i 1).val < 128 := (i 1).isLt
  have hlt : 8 * ((i 0).val / 8) + 7 < cfg0.N := by rw [Blocks.N16]; omega
  obtain ⟨e0, e1⟩ := idx_out6 ⟨8 * ((i 0).val / 8) + 7, hlt⟩
  refine ⟨⟨8 * ((i 0).val / 8) + 7, hlt⟩, (flush0_6 _).mpr (by show (8 * ((i 0).val / 8) + 7) % 8 = 7; omega), ?_⟩
  rw [mem_blk6]
  intro a
  match a with
  | ⟨0, _⟩ =>
    show win0_6.index ⟨8 * ((i 0).val / 8) + 7, hlt⟩ (0 : Fin 2) * 8 ≤ (i 0).val ∧ (i 0).val < win0_6.index ⟨8 * ((i 0).val / 8) + 7, hlt⟩ (0 : Fin 2) * 8 + 8
    rw [e0]; show (8 * ((i 0).val / 8) + 7) / 8 * 8 ≤ (i 0).val ∧ (i 0).val < (8 * ((i 0).val / 8) + 7) / 8 * 8 + 8; omega
  | ⟨1, _⟩ =>
    show win0_6.index ⟨8 * ((i 0).val / 8) + 7, hlt⟩ (1 : Fin 2) * 128 ≤ (i 1).val ∧ (i 1).val < win0_6.index ⟨8 * ((i 0).val / 8) + 7, hlt⟩ (1 : Fin 2) * 128 + 128
    rw [e1]; omega

/-- So the array ends holding it. -/
theorem final6 (c : Dev nD) : (dats m 0 c).arrAt 6 cfg0.N = G6 m c :=
  (dats m 0 c).arrAt_eq_of_cover 6 (G6 m c) (flushed6_eq m c) cover6

/-- The arrays the host lines after the region find. -/
theorem arr5 (c : Dev nD) :
    Pipeline.withArrays (cfgs 0).spec c (V0 m c) (fun w => (dats m 0 c).arrAt w (cfgs 0).N) (Proc.devRef .tc main_v1_0) = G5 m c :=
  (Pipeline.withArrays_arr spec0 launch0.win.arr_inj c _ _ 5).trans (final5 m c)
theorem arr6 (c : Dev nD) :
    Pipeline.withArrays (cfgs 0).spec c (V0 m c) (fun w => (dats m 0 c).arrAt w (cfgs 0).N) (Proc.devRef .tc main_v1_1) = G6 m c :=
  (Pipeline.withArrays_arr spec0 launch0.win.arr_inj c _ _ 6).trans (final6 m c)

/-- The host's sum of every entry of a [16, 128] array from the zero word, at the exact values. -/
theorem total_sum (x : Vec Ideal S16x128 .f32) (i : S_.Idx) :
    Host.reduceAdd x (constant (F := Ideal) S_ .f32 0x00000000#32) reducesTo_S16x128_S_d0_1 h_S_ i
      = Spec.zeroW + ∑ Y : S16x128.Idx, x Y := by
  simp only [Host.reduceAdd, Ideal.hostReduceAdd_def]
  exact Ideal.hostReduceAdd_total reducesTo_S16x128_S_d0_1 (fun b => b.elim0) x _ i

/-- Summed, the first array is zero plus the hinge total, the second zero plus the log-probability total. -/
theorem red5 (c : Dev nD) :
    Host.reduceAdd (G5 m c) (constant (F := Ideal) S_ .f32 0x00000000#32) reducesTo_S16x128_S_d0_1 h_S_
      = fun _ => Spec.lossTriplet (arrA m c) (arrP m c) (arrN m c) := by
  funext i
  rw [total_sum]
  show Spec.zeroW + ∑ Y : S16x128.Idx, G5fn m c Y = _
  unfold Spec.lossTriplet
  rw [Spec.sum_final (Acc.P5 m c), Blocks.sum_P5]

theorem red6 (c : Dev nD) :
    Host.reduceAdd (G6 m c) (constant (F := Ideal) S_ .f32 0x00000000#32) reducesTo_S16x128_S_d0_1 h_S_
      = fun _ => Spec.zeroW + Spec.logpTotal (arrO m c) (lab m c) := by
  funext i
  rw [total_sum]
  show Spec.zeroW + ∑ Y : S16x128.Idx, G6fn m c Y = _
  rw [Spec.sum_final (Acc.P6 m c), Blocks.sum_P6]

/-- The three results after the host lines that follow the region. -/
theorem tail_v2 (c : Dev nD) :
    Pipeline.afterTail₀ cfgs (dats m) 0 (V0 m) [hostOps1] c main_v2
      = fun _ => Spec.lossTriplet (arrA m c) (arrP m c) (arrN m c) := by
  unfold Pipeline.afterTail₀
  show StableHlo.after hostOps1 _ (Proc.devRef .tc main_v2) = _
  after_results
  rw [arr5 m c]
  exact red5 m c

theorem tail_v5 (c : Dev nD) :
    Pipeline.afterTail₀ cfgs (dats m) 0 (V0 m) [hostOps1] c main_v5
      = fun _ => Spec.lossSoftmax (arrO m c) (lab m c) := by
  unfold Pipeline.afterTail₀
  show StableHlo.after hostOps1 _ (Proc.devRef .tc main_v5) = _
  after_results
  rw [arr6 m c, red6 m c]
  funext i
  show Ideal.div (-(Spec.zeroW + Spec.logpTotal (arrO m c) (lab m c))) (Ideal.ofBits .f32 0x46000000#32) = _
  exact Consts.div_neg_8192 _

theorem tail_v7 (c : Dev nD) :
    Pipeline.afterTail₀ cfgs (dats m) 0 (V0 m) [hostOps1] c main_v7
      = fun _ => Spec.lossTotal (arrA m c) (arrP m c) (arrN m c) (arrO m c) (lab m c) := by
  unfold Pipeline.afterTail₀
  show StableHlo.after hostOps1 _ (Proc.devRef .tc main_v7) = _
  after_results
  rw [arr5 m c, arr6 m c, red5 m c, red6 m c]
  funext i
  show Ideal.div (-(Spec.zeroW + Spec.logpTotal (arrO m c) (lab m c))) (Ideal.ofBits .f32 0x46000000#32)
      + Ideal.ofBits .f32 0x3DCCCCCD#32 * Spec.lossTriplet (arrA m c) (arrP m c) (arrN m c) = _
  rw [Consts.div_neg_8192]
  rfl

/-- THE RUN, READ: every weakly fair execution ends with the three results at the specification's three losses of the
    argument arrays as launched, and the arguments unchanged. -/
theorem run : θ_run defs (onTc (τ := τ) (main (F := Ideal))) ⟨m, fun _ => 0, ρ⟩ fun r => ∀ c : Dev nD,
      r.2.mem ((c : Thread nD τ).loc main_v7) = (fun _ => Spec.lossTotal (arrA m c) (arrP m c) (arrN m c) (arrO m c) (lab m c))
      ∧ r.2.mem ((c : Thread nD τ).loc main_v2) = (fun _ => Spec.lossTriplet (arrA m c) (arrP m c) (arrN m c))
      ∧ r.2.mem ((c : Thread nD τ).loc main_v5) = (fun _ => Spec.lossSoftmax (arrO m c) (lab m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v7 (Pipeline.mem_restRefs_of main_v7 (by decide) (by decide))).trans (tail_v7 m c),
     ((h c).2 main_v2 (Pipeline.mem_restRefs_of main_v2 (by decide) (by decide))).trans (tail_v2 m c),
     ((h c).2 main_v5 (Pipeline.mem_restRefs_of main_v5 (by decide) (by decide))).trans (tail_v5 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).2 main_arg4 (Pipeline.mem_restRefs_of main_arg4 (by decide) (by decide))).trans (W_main_arg4 m (dats m) c)⟩)
    (run_main m ρ)

end Cert.KernelIdeal.Final

end
-- ==== Proof.RefHinge.lean ====
/-
  The reference's triplet loss, read stage by stage at the exact values: zero plus the sum over all rows of the hinge terms.
-/
import proofs.«409631_j17102559773290_2_alg».proof.Proof.RefRead
import proofs.«409631_j17102559773290_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Hand

open Idealize.ShloMosaic Idealize.ShloMosaic.ValueIdx Cert.ReferenceIdeal Cert.ReferenceIdeal.ReadP Cert.Hand

/-- A sum over the indices of a vector of 8192 entries is the sum over the rows: an index is its one coordinate. -/
theorem hinge_sum_rows (f : S8192.Idx → EReal) : ∑ j : S8192.Idx, f j = ∑ r : Fin 8192, f (ix1 r) :=
  (Equiv.sum_comp (⟨fun r => ix1 r, fun j => j 0, fun _ => rfl, fun j => (eq_ix1 j).symm⟩ : Fin 8192 ≃ S8192.Idx) f).symm

/-- The first sum of squares at a row: the initial zero adds nothing, and each of the 512 terms is the square of the
    shifted difference of the two arrays at that row and column. -/
theorem hinge_val_v10_row (x0 x1 : (⟨S8192x512, .f32⟩ : BufTy).Contents (Elt Ideal)) (r : Fin 8192) :
    val_main_v10 (F := Ideal) x0 x1 (ix1 r) = Spec.sqDist x0 x1 r := by
  rw [val_main_v10_apply, val_main_cst_2_apply]
  unfold Spec.sqDist
  rw [Ideal.ofBits_def, Ideal.ofBits_zero_f32, zero_add]
  refine Finset.sum_congr rfl fun k _ => ?_
  have e : idx_main_v10 (ix1 r) k = ix2 r k :=
    funext fun a => Fin.ext (by match a with | ⟨0, _⟩ => rfl | ⟨1, _⟩ => rfl)
  rw [e, val_main_v9_apply, val_main_v8_apply, val_main_v6_apply, val_main_v7_apply, val_main_cst_1_apply]
  simp only [Ideal.mulf_def, Ideal.addf_def, Ideal.subf_def, Ideal.ofBits_def]

/-- The second sum of squares is the first one's formula, applied to the first and third arrays: the same operations
    on the same constants, stage for stage. -/
theorem hinge_val_v16_eq (x0 x2 : (⟨S8192x512, .f32⟩ : BufTy).Contents (Elt Ideal)) :
    val_main_v16 (F := Ideal) x0 x2 = val_main_v10 (F := Ideal) x0 x2 := rfl

/-- The stage before the last sum, at a row, is that row's hinge term: the larger of zero and the difference of the
    square roots of the two sums of squares. -/
theorem hinge_val_v19_row (x0 x1 x2 : (⟨S8192x512, .f32⟩ : BufTy).Contents (Elt Ideal)) (r : Fin 8192) :
    val_main_v19 (F := Ideal) x0 x1 x2 (ix1 r) = Spec.hinge x0 x1 x2 r := by
  rw [val_main_v19_apply, val_main_v18_apply, val_main_v11_apply, val_main_v17_apply, val_main_call2_v0_apply,
    val_main_call2_cst_apply, hinge_val_v16_eq, hinge_val_v10_row, hinge_val_v10_row]
  simp only [Ideal.maximumf_def, Ideal.subf_def, Ideal.hostUnary_sqrt_def, Ideal.ofBits_def]
  rfl

/-- The reference's second result is the specification's triplet loss. -/
theorem val_v20_eq (x0 x1 x2 : (⟨S8192x512, .f32⟩ : BufTy).Contents (Elt Ideal)) :
    val_main_v20 (F := Ideal) x0 x1 x2 = fun _ => Spec.lossTriplet x0 x1 x2 := by
  funext i
  -- The result is the constant zero plus the sum over all 8192 entries of the stage before; an entry is a row, and
  -- the stage at a row is the row's hinge term.
  rw [val_main_v20_apply, val_main_cst_5_apply, hinge_sum_rows]
  simp only [hinge_val_v19_row, Ideal.ofBits_def]
  rfl

end Cert.ReferenceIdeal.Hand

end
-- ==== Proof.RefLogp.lean ====
/-
  The reference's softmax loss, read stage by stage at the exact values: when every label is a column's number, the negated quotient by 8192 of zero plus the sum over all rows of the log-probabilities of the labels.
-/
import proofs.«409631_j17102559773290_2_alg».proof.Proof.RefRead
import proofs.«409631_j17102559773290_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.Hand

open Idealize.ShloMosaic Idealize.ShloMosaic.ValueIdx Cert.ReferenceIdeal Cert.ReferenceIdeal.ReadP Cert.Hand

/-- The shape fact that names the index inserted on the column axis. -/
theorem logp_red1000 : S8192x1000.Reduces [1] S8192 := by decide

/-- Row r with column c inserted is the entry (r, c). -/
theorem logp_lift1000 (r : Fin 8192) (c : Fin 1000) : logp_red1000.lift (ix1 r) c = ix2 r c :=
  funext fun a => Fin.ext (by match a with | ⟨0, _⟩ => rfl | ⟨1, _⟩ => rfl)

/-- A row's maximum as the reference takes it is the fold of max from minus infinity over the row's columns. -/
theorem logp_v0_eq (x3 : (⟨S8192x1000, .f32⟩ : BufTy).Contents (Elt Ideal)) (r : Fin 8192) :
    val_main_call0_v0 (F := Ideal) x3 (ix1 r) = Spec.rowMax x3 r := by
  unfold val_main_call0_v0
  refine (Host.reduce_eq_fold_single (FloatOps.maximumf (F := Ideal) (φ := .f32)) x3 _ Gen.reducesTo_S8192x1000_S8192_d1 logp_red1000 Gen.h_S_ (ix1 r)).trans ?_
  show Finset.fold max Spec.negInfW (fun c : Fin 1000 => x3 (logp_red1000.lift (ix1 r) c)) Finset.univ = Finset.fold max Spec.negInfW (fun c : Fin 1000 => x3 (ix2 r c)) Finset.univ
  simp only [logp_lift1000]

/-- The maximum with minus infinity changes nothing: a fold of max from minus infinity is at least minus infinity. -/
theorem logp_v2_eq (x3 : (⟨S8192x1000, .f32⟩ : BufTy).Contents (Elt Ideal)) (r : Fin 8192) :
    val_main_call0_v2 (F := Ideal) x3 (ix1 r) = Spec.rowMax x3 r := by
  rw [val_main_call0_v2_apply, val_main_call0_v1_apply, val_main_call0_cst_0_apply, logp_v0_eq]
  simp only [Ideal.maximumf_def, Ideal.ofBits_def]
  unfold Spec.rowMax
  exact max_eq_right ((Finset.le_fold_max _).2 (Or.inl le_rfl))

/-- A logit less its row's maximum. -/
theorem logp_v5_eq (x3 : (⟨S8192x1000, .f32⟩ : BufTy).Contents (Elt Ideal)) (r : Fin 8192) (c : Fin 1000) :
    val_main_call0_v5 (F := Ideal) x3 (ix2 r c) = x3 (ix2 r c) - Spec.rowMax x3 r := by
  rw [val_main_call0_v5_apply, val_main_call0_v4_apply, val_main_call0_v3_apply]
  have hi : idx_main_call0_v3 (idx_main_call0_v4 (ix2 r c)) = ix1 r :=
    funext fun a => Fin.ext (by match a with | ⟨0, _⟩ => rfl)
  rw [hi, logp_v2_eq]
  rfl

/-- A row's sum of exponentials of its shifted logits: the leading zero adds nothing. -/
theorem logp_v7_eq (x3 : (⟨S8192x1000, .f32⟩ : BufTy).Contents (Elt Ideal)) (r : Fin 8192) :
    val_main_call0_v7 (F := Ideal) x3 (ix1 r) = ∑ c : Fin 1000, Ideal.exp (x3 (ix2 r c) - Spec.rowMax x3 r) := by
  rw [val_main_call0_v7_apply, val_main_call0_cst_1_apply]
  have hk : ∀ k : Fin 1000, idx_main_call0_v7 (ix1 r) k = ix2 r k := fun k =>
    funext fun a => Fin.ext (by match a with | ⟨0, _⟩ => rfl | ⟨1, _⟩ => rfl)
  simp only [hk, val_main_call0_v6_apply, logp_v5_eq, Ideal.ofBits_def, Ideal.hostUnary_exp_def]
  rw [show Ideal.ofBits FTy.f32 0x00000000#32 = (0 : EReal) from Spec.zeroW_eq, zero_add]

/-- The log-softmax array at (r, c): the logit less the row's maximum less the row's log-sum-exp. -/
theorem logp_v0full_eq (x3 : (⟨S8192x1000, .f32⟩ : BufTy).Contents (Elt Ideal)) (r : Fin 8192) (c : Fin 1000) :
    val_main_v0 (F := Ideal) x3 (ix2 r c) = x3 (ix2 r c) - Spec.rowMax x3 r - Spec.logSumExp x3 r := by
  rw [val_main_v0_apply, logp_v5_eq, val_main_call0_v10_apply, val_main_call0_v9_apply, val_main_call0_v8_apply]
  have hi : idx_main_call0_v8 (idx_main_call0_v10 (ix2 r c)) = ix1 r :=
    funext fun a => Fin.ext (by match a with | ⟨0, _⟩ => rfl)
  rw [hi, logp_v7_eq]
  rfl

/-- A column's number as a word has the column's number as its value. -/
theorem logp_toNat_col (c : Fin 1000) : (BitVec.ofNat 32 c.val).toNat = c.val := by
  have := c.isLt
  simp only [BitVec.toNat_ofNat]; omega

/-- A column's number, as a word read signed, is not below zero. -/
theorem logp_col_not_neg (c : Fin 1000) : IntOp.cmpi .slt (BitVec.ofNat 32 c.val) 0#32 = 0#1 := by
  apply eq_zero_of_ne_one
  intro h
  have h1 := (StableHlo.Predicate.slt_iff_toNat (by rw [logp_toNat_col]; have := c.isLt; omega) (by decide)).1 h
  have h0 : (0#32 : BitVec 32).toNat = 0 := rfl
  rw [h0] at h1; omega

/-- A column's number, as a word read signed, is at least zero. -/
theorem logp_col_ge_zero (c : Fin 1000) : IntOp.cmpi .sge (BitVec.ofNat 32 c.val) 0#32 = 1#1 := by
  refine (StableHlo.Predicate.sge_iff_toNat (by rw [logp_toNat_col]; have := c.isLt; omega) (by decide)).2 ?_
  have h0 : (0#32 : BitVec 32).toNat = 0 := rfl
  rw [h0]; omega

/-- A column's number, as a word read signed, is at most 999. -/
theorem logp_col_le_last (c : Fin 1000) : IntOp.cmpi .sle (BitVec.ofNat 32 c.val) 999#32 = 1#1 := by
  refine (StableHlo.Predicate.sle_iff_toNat (by rw [logp_toNat_col]; have := c.isLt; omega) (by decide)).2 ?_
  have h0 : (999#32 : BitVec 32).toNat = 999 := rfl
  rw [h0, logp_toNat_col]; have := c.isLt; omega

/-- Read signed and clamped to the last column, a column's number is itself. -/
theorem logp_col_clamp (c : Fin 1000) : min (BitVec.ofNat 32 c.val).toInt.toNat 999 = c.val := by
  have := c.isLt
  rw [StableHlo.Predicate.toInt_ofNat_small c.val (by omega), Int.toNat_natCast]
  omega

/-- The label column at (r, 0) is row r's label. -/
theorem logp_lab1 (x4 : (⟨S8192, .i32⟩ : BufTy).Contents (Elt Ideal)) (r : Fin 8192) :
    val_main_v1 (F := Ideal) x4 (ix2 r 0) = x4 (ix1 r) := by
  rw [val_main_v1_apply]
  exact congrArg x4 (funext fun a => Fin.ext (by match a with | ⟨0, _⟩ => rfl))

/-- A label that is a column's number is not wrapped. -/
theorem logp_lab4 (x4 : (⟨S8192, .i32⟩ : BufTy).Contents (Elt Ideal)) (r : Fin 8192) (c : Fin 1000)
    (hw : x4 (ix1 r) = BitVec.ofNat 32 c.val) :
    val_main_call1_v4 (F := Ideal) x4 (ix2 r 0) = BitVec.ofNat 32 c.val := by
  rw [val_main_call1_v4_apply, val_main_call1_v1_apply, logp_lab1, val_main_call1_v0_apply, val_main_call1_c_apply, hw,
    logp_col_not_neg, select_zero]

/-- The start index of row r is its label. -/
theorem logp_lab5 (x4 : (⟨S8192, .i32⟩ : BufTy).Contents (Elt Ideal)) (r : Fin 8192) (c : Fin 1000)
    (hw : x4 (ix1 r) = BitVec.ofNat 32 c.val) :
    val_main_call1_v5 (F := Ideal) x4 (ix3 r 0 0) = BitVec.ofNat 32 c.val := by
  rw [val_main_call1_v5_apply]
  have hi : idx_main_call1_v5 (ix3 r (0 : Fin 1) (0 : Fin 1)) = ix2 r 0 :=
    funext fun a => Fin.ext (by
      match a with
      | ⟨0, _⟩ => show ((r.val * 1 + 0) * 1 + 0) / 1 = r.val; omega
      | ⟨1, _⟩ => rfl)
  rw [hi, logp_lab4 x4 r c hw]

/-- The label is in bounds: both range compares give the bit 1. -/
theorem logp_lab11 (x4 : (⟨S8192, .i32⟩ : BufTy).Contents (Elt Ideal)) (r : Fin 8192) (c : Fin 1000)
    (hw : x4 (ix1 r) = BitVec.ofNat 32 c.val) :
    val_main_call1_v11 (F := Ideal) x4 (ix3 r 0 0) = 1#1 := by
  rw [val_main_call1_v11_apply, val_main_call1_v7_apply, val_main_call1_v10_apply, logp_lab5 x4 r c hw,
    val_main_call1_v6_apply, val_main_call1_c_2_apply, val_main_call1_v9_apply, val_main_call1_v8_apply,
    val_main_call1_c_1_apply, logp_col_ge_zero, logp_col_le_last]
  rfl

/-- The shape fact that names the index inserted on the trailing unit axis. -/
theorem logp_red1 : S8192x1x1.Reduces [2] S8192x1 := by decide

/-- And-ing a bit with the bit 1 gives the bit back. -/
theorem logp_andi_one : ∀ b : BitVec 1, IntOp.andi b 1#1 = b := by decide

/-- The and over the trailing unit axis, from the bit 1, is the operand's one entry there. -/
theorem logp_v12_eq (x4 : (⟨S8192, .i32⟩ : BufTy).Contents (Elt Ideal)) (r : Fin 8192) :
    val_main_call1_v12 (F := Ideal) x4 (ix2 r 0) = val_main_call1_v11 (F := Ideal) x4 (ix3 r 0 0) := by
  unfold val_main_call1_v12
  refine (Host.reduce_eq_fold_single (IntOp.andi (w := 1)) (val_main_call1_v11 (F := Ideal) x4) _
    Gen.reducesTo_S8192x1x1_S8192x1_d2 logp_red1 Gen.h_S_ (ix2 r 0)).trans ?_
  show Finset.fold IntOp.andi 1#1 (fun k : Fin 1 => val_main_call1_v11 (F := Ideal) x4 (logp_red1.lift (ix2 r 0) k))
    (Finset.univ : Finset (Fin 1)) = _
  rw [Finset.univ_unique, Finset.fold_singleton, logp_andi_one]
  exact congrArg (val_main_call1_v11 (F := Ideal) x4)
    (funext fun a => Fin.ext (by match a with | ⟨0, _⟩ => rfl | ⟨1, _⟩ => rfl | ⟨2, _⟩ => rfl))

/-- The gather at (r, 0): the operand at row r and at the column the start index names, read signed and clamped to the last column. -/
theorem logp_gather_row {α : Type} (x : S8192x1000.Idx → α) (idx : IVec S8192x1x1 32) (r : Fin 8192) :
    Host.gather gather_S8192x1000_S8192x1x1_S8192x1_n_1_0_0_1_2_11 x idx (ix2 r 0)
      = x (ix2 r ⟨min (idx (ix3 r 0 0)).toInt.toNat 999, by omega⟩) := by
  unfold Host.gather
  congr 1
  funext a
  refine Fin.ext ?_
  match a with
  | ⟨0, _⟩ =>
    show GatherDims.start gather_S8192x1000_S8192x1x1_S8192x1_n_1_0_0_1_2_11 (ix2 r 0) idx 0
      + GatherDims.batchCoord gather_S8192x1000_S8192x1x1_S8192x1_n_1_0_0_1_2_11 (ix2 r 0) 0
      + GatherDims.offCoord gather_S8192x1000_S8192x1x1_S8192x1_n_1_0_0_1_2_11 (ix2 r 0) 0 = r.val
    have hb : (0 : Fin 2) ∈ (gather_S8192x1000_S8192x1x1_S8192x1_n_1_0_0_1_2_11).operandBatchingDims :=
      List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, _⟩ =>
    show GatherDims.start gather_S8192x1000_S8192x1x1_S8192x1_n_1_0_0_1_2_11 (ix2 r 0) idx 1
      + GatherDims.batchCoord gather_S8192x1000_S8192x1x1_S8192x1_n_1_0_0_1_2_11 (ix2 r 0) 1
      + GatherDims.offCoord gather_S8192x1000_S8192x1x1_S8192x1_n_1_0_0_1_2_11 (ix2 r 0) 1 = min (idx (ix3 r 0 0)).toInt.toNat 999
    have hc : (1 : Fin 2) ∈ (gather_S8192x1000_S8192x1x1_S8192x1_n_1_0_0_1_2_11).collapsedSliceDims :=
      List.mem_singleton.mpr rfl
    have hnb : (1 : Fin 2) ∉ (gather_S8192x1000_S8192x1x1_S8192x1_n_1_0_0_1_2_11).operandBatchingDims := by
      intro h; exact absurd (List.mem_singleton.mp h) (by decide)
    have hm : (1 : Fin 2) ∈ (gather_S8192x1000_S8192x1x1_S8192x1_n_1_0_0_1_2_11).startIndexMap :=
      List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (gather_S8192x1000_S8192x1x1_S8192x1_n_1_0_0_1_2_11).siIdx (ix2 r 0)
        ⟨List.idxOf (1 : Fin 2) (gather_S8192x1000_S8192x1x1_S8192x1_n_1_0_0_1_2_11).startIndexMap,
          List.idxOf_lt_length_iff.2 hm⟩ = ix3 r 0 0 := by
      funext b; refine Fin.ext ?_
      match b with
      | ⟨0, _⟩ => rfl
      | ⟨1, _⟩ => rfl
      | ⟨2, _⟩ => rfl
    rw [hsi]
    rfl

/-- The gathered column at (r, 0), row r's label being column c: the row's log-probability of its label. The mask is
    the bit 1, the clamp leaves c, and the one-hot selection sum is the logit of column c. -/
theorem logp_v2col_eq (x3 : (⟨S8192x1000, .f32⟩ : BufTy).Contents (Elt Ideal)) (x4 : (⟨S8192, .i32⟩ : BufTy).Contents (Elt Ideal))
    (r : Fin 8192) (c : Fin 1000) (hw : x4 (ix1 r) = BitVec.ofNat 32 c.val) :
    val_main_v2 (F := Ideal) x3 x4 (ix2 r 0) = Spec.logp x3 (fun r => x4 (ix1 r)) r := by
  rw [val_main_v2_apply, logp_v12_eq, logp_lab11 x4 r c hw, select_one]
  unfold val_main_call1_v13
  refine (logp_gather_row (val_main_v0 (F := Ideal) x3) (val_main_call1_v5 (F := Ideal) x4) r).trans ?_
  have hcol : (⟨min (val_main_call1_v5 (F := Ideal) x4 (ix3 r 0 0)).toInt.toNat 999, by omega⟩ : Fin 1000) = c :=
    Fin.ext (by
      show min (val_main_call1_v5 (F := Ideal) x4 (ix3 r 0 0)).toInt.toNat 999 = c.val
      rw [logp_lab5 x4 r c hw]; exact logp_col_clamp c)
  refine (congrArg (fun k : Fin 1000 => val_main_v0 (F := Ideal) x3 (ix2 r k)) hcol).trans ?_
  show val_main_v0 (F := Ideal) x3 (ix2 r c) = _
  rw [logp_v0full_eq]
  unfold Spec.logp
  rw [Spec.picked_eq x3 _ r c hw]

/-- The sum of the gathered column over its entries is the sum over the rows of the log-probabilities. -/
theorem logp_v2sum_eq (x3 : (⟨S8192x1000, .f32⟩ : BufTy).Contents (Elt Ideal)) (x4 : (⟨S8192, .i32⟩ : BufTy).Contents (Elt Ideal))
    (hl : Spec.InRange fun r => x4 (ix1 r)) :
    ∑ j : S8192x1.Idx, val_main_v2 (F := Ideal) x3 x4 j = Spec.logpTotal x3 (fun r => x4 (ix1 r)) := by
  unfold Spec.logpTotal
  rw [sum_idx2]
  refine Finset.sum_congr rfl fun r _ => ?_
  rw [Fin.sum_univ_one]
  obtain ⟨c, hc⟩ := hl r
  exact logp_v2col_eq x3 x4 r c hc

/-- The reference's third result is the specification's softmax loss, the labels being in range. -/
theorem val_v5_eq (x3 : (⟨S8192x1000, .f32⟩ : BufTy).Contents (Elt Ideal)) (x4 : (⟨S8192, .i32⟩ : BufTy).Contents (Elt Ideal))
    (hl : Spec.InRange fun r => x4 (ix1 r)) :
    val_main_v5 (F := Ideal) x3 x4 = fun _ => Spec.lossSoftmax x3 (fun r => x4 (ix1 r)) := by
  funext i
  rw [val_main_v5_apply, val_main_v4_apply, val_main_v3_apply, val_main_cst_apply, val_main_cst_0_apply, logp_v2sum_eq x3 x4 hl]
  rfl

end Cert.ReferenceIdeal.Hand

end
-- ==== Proof.RefTotal.lean ====
/-
  The reference's total loss from its two parts: the softmax loss plus a tenth (as its word) of the triplet loss.
-/
import proofs.«409631_j17102559773290_2_alg».proof.Proof.RefHinge
import proofs.«409631_j17102559773290_2_alg».proof.Proof.RefLogp

noncomputable section

namespace Cert.ReferenceIdeal.Hand

open Idealize.ShloMosaic Idealize.ShloMosaic.ValueIdx Cert.ReferenceIdeal Cert.ReferenceIdeal.ReadP Cert.Hand

/-- The reference's first result is the specification's total loss, the labels being in range. -/
theorem val_v22_eq (x0 x1 x2 : (⟨S8192x512, .f32⟩ : BufTy).Contents (Elt Ideal)) (x3 : (⟨S8192x1000, .f32⟩ : BufTy).Contents (Elt Ideal))
    (x4 : (⟨S8192, .i32⟩ : BufTy).Contents (Elt Ideal)) (hl : Spec.InRange fun r => x4 (ix1 r)) :
    val_main_v22 (F := Ideal) x0 x1 x2 x3 x4 = fun _ => Spec.lossTotal x0 x1 x2 x3 (fun r => x4 (ix1 r)) := by
  funext i
  rw [val_main_v22_apply, val_main_v21_apply, val_main_cst_6_apply, val_v5_eq x3 x4 hl, val_v20_eq]
  rfl

end Cert.ReferenceIdeal.Hand

end
-- ==== Proof.Labels.lean ====
/-
  The precondition read for what it says of the labels: every label word is the number of one of the thousand columns.
-/
import proofs.«409631_j17102559773290_2_alg».proof.Pre_finite_inputs
import proofs.«409631_j17102559773290_2_alg».proof.Proof.Spec
import Idealize.ShloMosaic.Lib.ReduceAll
import Idealize.ShloMosaic.Lib.StableHlo.Predicate
import Idealize.ShloMosaic.Lib.ValueIdx

noncomputable section

namespace Cert.Hand.Labels

open Idealize.ShloMosaic Idealize.ShloMosaic.ValueIdx

/-- The scalar shape has exactly one index. -/
instance : Subsingleton Cert.Pre_finite_inputs.S_.Idx := ⟨fun a b => funext fun d => d.elim0⟩

/-- A word that compares at least zero and below one thousand, both read signed, is the word of a number below one
    thousand: read signed it lies in [0, 1000), so its top bit is clear, its unsigned reading is the same number, and a
    word is the word of its unsigned reading. -/
theorem word_of_compares (w : BitVec 32) (h0 : IntOp.cmpi .sge w 0#32 = 1#1) (h1 : IntOp.cmpi .slt w 1000#32 = 1#1) :
    ∃ c : Fin 1000, w = BitVec.ofNat 32 c.val := by
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  have hw : w.toNat < 2 ^ 32 := w.isLt
  rw [BitVec.toInt_eq_toNat_cond] at h0 h1
  have hlt : w.toNat < 1000 := by
    split at h0 <;> split at h1 <;> omega
  refine ⟨⟨w.toNat, hlt⟩, ?_⟩
  apply BitVec.eq_of_toNat_eq
  rw [BitVec.toNat_ofNat]
  exact (Nat.mod_eq_of_lt (by omega)).symm

/-- If the precondition's function is all ones on the five arrays, every label is in range. -/
theorem inRange_of_pre {F : FTy → Type} [FloatOps F] [Cert.Pre_finite_inputs.Facts]
    (a p n : FVec F Cert.Pre_finite_inputs.S8192x512 .f32) (o : FVec F Cert.Pre_finite_inputs.S8192x1000 .f32)
    (l : IVec Cert.Pre_finite_inputs.S8192 32)
    (h : Cert.Pre_finite_inputs.fn (F := F) a p n o l = fun _ => 1#1) :
    Cert.Hand.Spec.InRange fun r => l (ix1 r) := by
  intro r
  -- The function's value at the one scalar index is 1.
  have h0 := congrFun h ValueIdx.ix0
  dsimp only [Cert.Pre_finite_inputs.fn, Cert.Pre_finite_inputs.fn_part1] at h0
  -- That value is a conjunction of six bits; the last is "every label is below 1000", the one before it "every label
  -- is at least 0".
  change IntOp.andi _ _ = 1#1 at h0
  obtain ⟨h22, h25⟩ := IntOp.andi_eq_one.1 h0
  change IntOp.andi _ _ = 1#1 at h22
  obtain ⟨-, h21⟩ := IntOp.andi_eq_one.1 h22
  -- A conjunction over all 8192 entries that is 1 has a 1 at entry r; there the compared constant is the broadcast
  -- scalar itself.
  have g0 := Host.reduce_andi_all _ _ _ _ _ h21 (ix1 r)
  have g1 := Host.reduce_andi_all _ _ _ _ _ h25 (ix1 r)
  exact word_of_compares (l (ix1 r)) g0 g1

end Cert.Hand.Labels

end
-- ==== Proof.lean ====
/-
  The certificate of a fused triplet-and-softmax loss kernel against its reference, over the extended reals.

  The batch has 8192 rows. The triplet loss is the sum over the rows of the positive part of the difference of two
  distances; the softmax loss is the negated mean of the rows' log-probabilities of their labels; the total is the
  softmax loss plus a tenth of the triplet loss. The kernel walks the rows 512 at a time on two cores, each keeping its
  two running sums at one entry of an [8, 128] block, and the host sums the blocks; the reference sums the rows at once.
  Both end at the same three sums over the rows: addition on the extended reals is associative and commutative, dividing
  by 8192 commutes with negation, and a label that is a column's number selects that column's logit, which is where
  the precondition's range of the labels is used. The frames of the kernel and its idealization are the generated ones;
  the reference's frame is its run with the results dropped; the idealization rewrote nothing.
-/
import proofs.«409631_j17102559773290_2_alg».proof.Defs
import proofs.«409631_j17102559773290_2_alg».proof.Proof.Gen.Kernel
import proofs.«409631_j17102559773290_2_alg».proof.Proof.Gen.Kernel.Skeleton
import proofs.«409631_j17102559773290_2_alg».proof.Proof.Gen.Kernel.Launch
import proofs.«409631_j17102559773290_2_alg».proof.Proof.Gen.Kernel.Points
import proofs.«409631_j17102559773290_2_alg».proof.Proof.Gen.Kernel.Frame
import proofs.«409631_j17102559773290_2_alg».proof.Proof.Gen.KernelIdeal
import proofs.«409631_j17102559773290_2_alg».proof.Proof.Gen.KernelIdeal.Skeleton
import proofs.«409631_j17102559773290_2_alg».proof.Proof.Gen.KernelIdeal.Launch
import proofs.«409631_j17102559773290_2_alg».proof.Proof.Gen.KernelIdeal.Points
import proofs.«409631_j17102559773290_2_alg».proof.Proof.Gen.KernelIdeal.Frame
import proofs.«409631_j17102559773290_2_alg».proof.Proof.Gen.ReferenceIdeal
import proofs.«409631_j17102559773290_2_alg».proof.Proof.Gen.Pre_finite_inputs
import proofs.«409631_j17102559773290_2_alg».proof.Proof.KernelFinal
import proofs.«409631_j17102559773290_2_alg».proof.Proof.RefTotal
import proofs.«409631_j17102559773290_2_alg».proof.Proof.Labels
import Idealize.ShloMosaic.Adequacy
import Idealize.ShloMosaic.Init

noncomputable section

namespace Cert.Proof

open Idealize.ShloMosaic Idealize.ShloMosaic.TcCoe Idealize.ShloMosaic.ValueIdx Idealize.SL.Sem Cert.Hand

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.ValueP.run (F := Ideal) m ρ)

/-- At the exact values the kernel's three results end at the three losses of its argument arrays, and the reference's at
    the same three losses of arguments that agree, every label being a column's number by the precondition. -/
theorem algebraic : Cert.algebraic_KernelIdeal_ReferenceIdeal := by
  intro m ρ m' ρ' hpre hagree
  have hl : ∀ c, Spec.InRange (Cert.KernelIdeal.Blocks.lab m c) := fun c => Labels.inRange_of_pre _ _ _ _ _ (hpre c)
  refine ⟨_, _, _, Cert.KernelIdeal.Final.run m ρ, ?_⟩
  refine (θ_run Cert.ReferenceIdeal.defs _ _).mono (fun _ h c => ?_) (Cert.ReferenceIdeal.ValueP.run (F := Ideal) m' ρ')
  obtain ⟨a0, a1, a2, a3, a4⟩ := hagree c
  refine ⟨(h c).1.trans ?_, (h c).2.1.trans ?_, (h c).2.2.1.trans ?_, (h c).2.2.2⟩
  · rw [Cert.ReferenceIdeal.ReadP.val_main_v22_eq, a0, a1, a2, a3, a4]
    exact Cert.ReferenceIdeal.Hand.val_v22_eq _ _ _ _ _ (hl c)
  · rw [Cert.ReferenceIdeal.ReadP.val_main_v20_eq, a0, a1, a2]
    exact Cert.ReferenceIdeal.Hand.val_v20_eq _ _ _
  · rw [Cert.ReferenceIdeal.ReadP.val_main_v5_eq, a3, a4]
    exact Cert.ReferenceIdeal.Hand.val_v5_eq _ _ (hl c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
